-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S2x800000 : Shape := ⟨2, ![2, 800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x256 .f32) (main_arg1 : FVec F S256x256 .f32) (main_arg2 : FVec F S256 .f32) (main_arg3 : FVec F S256x256 .f32) (main_arg4 : FVec F S256 .f32) (main_arg5 : IVec S2x800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S50000x256 : Shape := ⟨2, ![50000, 256]⟩
abbrev S256x256 : Shape := ⟨2, ![256, 256]⟩
abbrev S256 : Shape := ⟨1, ![256]⟩
abbrev S2x800000 : Shape := ⟨2, ![2, 800000]⟩
abbrev S1x800000 : Shape := ⟨2, ![1, 800000]⟩
abbrev S800000 : Shape := ⟨1, ![800000]⟩
abbrev S5000x256 : Shape := ⟨2, ![5000, 256]⟩
abbrev S_ : Shape := ⟨0, ![]⟩
abbrev S50000 : Shape := ⟨1, ![50000]⟩
abbrev S800000x1 : Shape := ⟨2, ![800000, 1]⟩
abbrev S10000 : Shape := ⟨1, ![10000]⟩
abbrev S800000x256 : Shape := ⟨2, ![800000, 256]⟩
abbrev S10000x256 : Shape := ⟨2, ![10000, 256]⟩
abbrev S10000x1 : Shape := ⟨2, ![10000, 1]⟩
abbrev S50000x1 : Shape := ⟨2, ![50000, 1]⟩
abbrev S1x256 : Shape := ⟨2, ![1, 256]⟩

abbrev nBuf : Space → Nat
  | .hbm => 77
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S10000, .f32⟩
  | .hbm, ⟨29, _⟩ => ⟨S800000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .i1⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S_, .f32⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S10000x256, .f32⟩
  | .hbm, ⟨52, _⟩ => ⟨S800000x1, .i32⟩
  | .hbm, ⟨53, _⟩ => ⟨S10000x256, .f32⟩
  | .hbm, ⟨54, _⟩ => ⟨S10000x1, .f32⟩
  | .hbm, ⟨55, _⟩ => ⟨S10000x256, .f32⟩
  | .hbm, ⟨56, _⟩ => ⟨S10000x256, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x256, .f32⟩
  | .hbm, ⟨66, _⟩ => ⟨S_, .f32⟩
  | .hbm, ⟨67, _⟩ => ⟨S50000x256, .f32⟩
  | .hbm, ⟨68, _⟩ => ⟨S800000x1, .i32⟩
  | .hbm, ⟨69, _⟩ => ⟨S50000x256, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S1x256, .f32⟩
  | .hbm, ⟨74, _⟩ => ⟨S256x256, .f32⟩
  | .hbm, ⟨75, _⟩ => ⟨S1x256, .f32⟩
  | .hbm, ⟨76, _⟩ => ⟨S256x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_c_11 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem1_0 : DmaSem sig := 10
abbrev cc2_sem2_0 : DmaSem sig := 11
abbrev cc2_sem3_0 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S10000 : S_.BroadcastsInDim S10000 (![] : Fin 0 → Fin S10000.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  shapeCasts_S256x256_S256x256 : S256x256.ShapeCasts S256x256
  broadcasts_S1x256_S256x256 : S1x256.Broadcasts S256x256
  dot_S5000x256_S256x256_S5000x256_1_1_0_0_n_n_wf : DotDims.WF S5000x256 S256x256 S5000x256 [1] [1] [0] [0] [] []
  scatter_S50000_S800000x1_S800000_n_0_0_1_wf : ScatterDims.WF S50000 S800000x1 S800000 [] [0] [0] 1
  scatter_S10000_S800000x1_S800000_n_0_0_1_wf : ScatterDims.WF S10000 S800000x1 S800000 [] [0] [0] 1
  gather_S50000x256_S800000x1_S800000x256_1_0_n_n_0_1_1256_wf : GatherDims.WF S50000x256 S800000x1 S800000x256 [1] [0] [] [0] [] 1 ![1, 256]
  scatter_S10000x256_S800000x1_S800000x256_1_0_0_1_wf : ScatterDims.WF S10000x256 S800000x1 S800000x256 [1] [0] [0] 1
  gather_S10000x256_S800000x1_S800000x256_1_0_n_n_0_1_1256_wf : GatherDims.WF S10000x256 S800000x1 S800000x256 [1] [0] [] [0] [] 1 ![1, 256]
  scatter_S50000x256_S800000x1_S800000x256_1_0_0_1_wf : ScatterDims.WF S50000x256 S800000x1 S800000x256 [1] [0] [0] 1
  dot_S5000x256_S5000x256_S256x256_0_0_1_1_n_n_wf : DotDims.WF S5000x256 S5000x256 S256x256 [0] [0] [1] [1] [] []
  dot_S256x256_S256x256_S256x256_1_1_0_0_n_n_wf : DotDims.WF S256x256 S256x256 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S256x256.size a
  hwx2_0 : ∀ i : grid2.Coords, EltTy.bits .f32 = 32 ∨ (Rect.block (s := S256x256) S256x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)

variable [Facts₀]

def dot_S5000x256_S256x256_S5000x256_1_1_0_0_n_n : DotDims S5000x256 S256x256 S5000x256 where
  lhsContracting := [1]
  rhsContracting := [1]
  lhsNonContracting := [0]
  rhsNonContracting := [0]
  lhsBatch := []
  rhsBatch := []
  wf := dot_S5000x256_S256x256_S5000x256_1_1_0_0_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S10000x256_S800000x1_S800000x256_1_0_0_1 : ScatterDims S10000x256 S800000x1 S800000x256 where
  updateWindowDims := [1]
  insertedWindowDims := [0]
  scatterDimsToOperandDims := [0]
  indexVectorDim := 1
  wf := scatter_S10000x256_S800000x1_S800000x256_1_0_0_1_wf
def gather_S10000x256_S800000x1_S800000x256_1_0_n_n_0_1_1256 : GatherDims S10000x256 S800000x1 S800000x256 where
  offsetDims := [1]
  collapsedSliceDims := [0]
  operandBatchingDims := []
  startIndicesBatchingDims := []
  startIndexMap := [0]
  indexVectorDim := 1
  sliceSizes := ![1, 256]
  wf := gather_S10000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S5000x256_S256x256_0_0_1_1_n_n : DotDims S5000x256 S5000x256 S256x256 where
  lhsContracting := [0]
  rhsContracting := [0]
  lhsNonContracting := [1]
  rhsNonContracting := [1]
  lhsBatch := []
  rhsBatch := []
  wf := dot_S5000x256_S5000x256_S256x256_0_0_1_1_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S256x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S256x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S256x256.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S10000 : Shape := ⟨1, ![10000]⟩
abbrev S800000x256 : Shape := ⟨2, ![800000, 256]⟩
abbrev S10000x256 : Shape := ⟨2, ![10000, 256]⟩
abbrev S10000x1 : Shape := ⟨2, ![10000, 1]⟩
abbrev S50000x1 : Shape := ⟨2, ![50000, 1]⟩
abbrev S1x256 : Shape := ⟨2, ![1, 256]⟩
abbrev S256x50000 : Shape := ⟨2, ![256, 50000]⟩

abbrev nBuf : Space → Nat
  | .hbm => 100
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S256x256, .f32⟩
  | .hbm, ⟨11, _⟩ => ⟨S50000x256, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S10000, .f32⟩
  | .hbm, ⟨30, _⟩ => ⟨S800000x1, .i32⟩
  | .hbm, ⟨31, _⟩ => ⟨S10000, .f32⟩
  | .hbm, ⟨32, _⟩ => ⟨S_, .f32⟩
  | .hbm, ⟨33, _⟩ => ⟨S10000, .f32⟩
  | .hbm, ⟨34, _⟩ => ⟨S10000, .i1⟩
  | .hbm, ⟨35, _⟩ => ⟨S_, .f32⟩
  | .hbm, ⟨36, _⟩ => ⟨S10000, .f32⟩
  | .hbm, ⟨37, _⟩ => ⟨S10000, .f32⟩
  | .hbm, ⟨38, _⟩ => ⟨S_, .f32⟩
  | .hbm, ⟨39, _⟩ => ⟨S_, .f32⟩
  | .hbm, ⟨40, _⟩ => ⟨S10000, .f32⟩
  | .hbm, ⟨41, _⟩ => ⟨S10000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S10000x256, .f32⟩
  | .hbm, ⟨53, _⟩ => ⟨S800000x1, .i32⟩
  | .hbm, ⟨54, _⟩ => ⟨S10000x256, .f32⟩
  | .hbm, ⟨55, _⟩ => ⟨S10000x1, .f32⟩
  | .hbm, ⟨56, _⟩ => ⟨S10000x256, .f32⟩
  | .hbm, ⟨57, _⟩ => ⟨S10000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S50000x256, .f32⟩
  | .hbm, ⟨77, _⟩ => ⟨S_, .f32⟩
  | .hbm, ⟨78, _⟩ => ⟨S_, .f32⟩
  | .hbm, ⟨79, _⟩ => ⟨S50000x256, .f32⟩
  | .hbm, ⟨80, _⟩ => ⟨S50000x256, .i1⟩
  | .hbm, ⟨81, _⟩ => ⟨S_, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S256x50000, .f32⟩
  | .hbm, ⟨86, _⟩ => ⟨S256x256, .f32⟩
  | .hbm, ⟨87, _⟩ => ⟨S256x256, .f32⟩
  | .hbm, ⟨88, _⟩ => ⟨S256x256, .f32⟩
  | .hbm, ⟨89, _⟩ => ⟨S1x256, .f32⟩
  | .hbm, ⟨90, _⟩ => ⟨S256x256, .f32⟩
  | .hbm, ⟨91, _⟩ => ⟨S256x256, .f32⟩
  | .hbm, ⟨92, _⟩ => ⟨S_, .f32⟩
  | .hbm, ⟨93, _⟩ => ⟨S_, .f32⟩
  | .hbm, ⟨94, _⟩ => ⟨S256x256, .f32⟩
  | .hbm, ⟨95, _⟩ => ⟨S256x256, .i1⟩
  | .hbm, ⟨96, _⟩ => ⟨S_, .f32⟩
  | .hbm, ⟨97, _⟩ => ⟨S256x256, .f32⟩
  | .hbm, ⟨98, _⟩ => ⟨S256x256, .f32⟩
  | .hbm, ⟨99, _⟩ => ⟨S256x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_10 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_14 : Ref sig .tc := ⟨.hbm, 92, rfl⟩
abbrev main_call3_cst : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v60 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x256_S256x256_1_0 : S256x256.Transposes [1, 0] S256x256
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S10000 : S_.BroadcastsInDim S10000 (![] : Fin 0 → Fin S10000.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S50000x256_S256x50000_1_0 : S50000x256.Transposes [1, 0] S256x50000
  bcast_S1x256_S256x256_0_1 : S1x256.BroadcastsInDim S256x256 (![0, 1] : Fin 2 → Fin S256x256.rank)
  bcast_S_S256x256 : S_.BroadcastsInDim S256x256 (![] : Fin 0 → Fin S256x256.rank)
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  scatter_S10000_S800000x1_S800000_n_0_0_1_wf : ScatterDims.WF S10000 S800000x1 S800000 [] [0] [0] 1
  gather_S50000x256_S800000x1_S800000x256_1_0_n_n_0_1_1256_wf : GatherDims.WF S50000x256 S800000x1 S800000x256 [1] [0] [] [0] [] 1 ![1, 256]
  scatter_S10000x256_S800000x1_S800000x256_1_0_0_1_wf : ScatterDims.WF S10000x256 S800000x1 S800000x256 [1] [0] [0] 1
  gather_S10000x256_S800000x1_S800000x256_1_0_n_n_0_1_1256_wf : GatherDims.WF S10000x256 S800000x1 S800000x256 [1] [0] [] [0] [] 1 ![1, 256]
  scatter_S50000x256_S800000x1_S800000x256_1_0_0_1_wf : ScatterDims.WF S50000x256 S800000x1 S800000x256 [1] [0] [0] 1
  dot_S256x50000_S50000x256_S256x256_1_0_0_1_n_n_wf : DotDims.WF S256x50000 S50000x256 S256x256 [1] [0] [0] [1] [] []
  dot_S256x256_S256x256_S256x256_1_0_0_1_n_n_wf : DotDims.WF S256x256 S256x256 S256x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S10000x256_S800000x1_S800000x256_1_0_0_1 : ScatterDims S10000x256 S800000x1 S800000x256 where
  updateWindowDims := [1]
  insertedWindowDims := [0]
  scatterDimsToOperandDims := [0]
  indexVectorDim := 1
  wf := scatter_S10000x256_S800000x1_S800000x256_1_0_0_1_wf
def gather_S10000x256_S800000x1_S800000x256_1_0_n_n_0_1_1256 : GatherDims S10000x256 S800000x1 S800000x256 where
  offsetDims := [1]
  collapsedSliceDims := [0]
  operandBatchingDims := []
  startIndicesBatchingDims := []
  startIndexMap := [0]
  indexVectorDim := 1
  sliceSizes := ![1, 256]
  wf := gather_S10000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S256x50000_S50000x256_S256x256_1_0_0_1_n_n : DotDims S256x50000 S50000x256 S256x256 where
  lhsContracting := [1]
  rhsContracting := [0]
  lhsNonContracting := [0]
  rhsNonContracting := [1]
  lhsBatch := []
  rhsBatch := []
  wf := dot_S256x50000_S50000x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

class Facts : Prop extends Facts₀ where

variable [Facts]
-- ==== Proof.Spec.lean ====
/-
  The mathematics both programs compute, stated once over plain index functions on the extended reals.

  A hypergraph convolution followed by a Gram matrix and a dense head:
    * `proj x w`   — the product x·wᵀ: entry (r, j) is the sum over k of x(r,k)·w(j,k);
    * `lrelu a`    — the leaky rectifier: a when a ≥ 0, otherwise slope·a, the slope being the f32 word 0x3C23D70A;
    * `act n b`    — the rectifier applied to n(r,j) + b(j): a bias vector added along the rows;
    * `gram y`     — yᵀ·y: entry (i, j) is the sum over ALL rows r of y(r,i)·y(r,j);
    * `head g w b` — the rectifier applied to (g·wᵀ)(i,j) + b(j).
  The aggregation between `proj` and `act` (two gathers and two accumulating scatters driven by the incidence list,
  normalised by the degrees) is the same chain of host operations in both programs and is carried as one function.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Indices of a rank-2 array of extents `a × b`. -/
abbrev I2 (a b : Nat) : Type := (⟨2, ![a, b]⟩ : Shape).Idx
/-- Indices of a rank-1 array of extent `a`. -/
abbrev I1 (a : Nat) : Type := (⟨1, ![a]⟩ : Shape).Idx

/-- `x · wᵀ`: entry (r, j) is `∑ k, x(r,k) · w(j,k)`. -/
def proj {R K C : Nat} (x : I2 R K → EReal) (w : I2 C K → EReal) : I2 R C → EReal :=
  fun i => ∑ k : Fin K, x (ix2 (i 0) k) * w (ix2 (i 1) k)

/-- The leaky rectifier: `a` where `a ≥ 0`, else the slope (the f32 word 0x3C23D70A, read exactly) times `a`. -/
def lrelu (a : EReal) : EReal :=
  Scalar.select (Ideal.cmp .oge a (Ideal.ofBits .f32 0x00000000#32)) a (Ideal.ofBits .f32 0x3C23D70A#32 * a)

/-- The rectifier of `n(r,j) + b(j)`: a bias vector added to every row. -/
def act {R C : Nat} (n : I2 R C → EReal) (b : Fin C → EReal) : I2 R C → EReal :=
  fun i => lrelu (n i + b (i 1))

/-- `yᵀ · y`: entry (i, j) is the sum over all rows `r` of `y(r,i) · y(r,j)`. -/
def gram {R C : Nat} (y : I2 R C → EReal) : I2 C C → EReal :=
  fun i => ∑ r : Fin R, y (ix2 r (i 0)) * y (ix2 r (i 1))

/-- The dense head: the rectifier of `(g · wᵀ)(i,j) + b(j)`. -/
def head {C : Nat} (g : I2 C C → EReal) (w : I2 C C → EReal) (b : Fin C → EReal) : I2 C C → EReal :=
  fun i => lrelu (proj g w i + b (i 1))

end Cert.Spec

end
-- ==== Proof.R0Value.lean ====
import proofs.«159324_j40638980555154_1_alg».proof.Proof.Gen.KernelIdeal.Frame
import proofs.«159324_j40638980555154_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.R0Value

open Cert.KernelIdeal Cert.KernelIdeal.Gen

/-! ## The matrix product's operand indices

The body's one product contracts both operands on their axis 1: at output index `(p, q)` and contraction
position `k` the left operand is read at `(p, k)` and the right operand at `(q, k)`. -/

/-- On its free axis the left operand follows the output's row. -/
theorem lhs_row (j : S5000x256.Idx) (k : dot_S5000x256_S256x256_S5000x256_1_1_0_0_n_n.contr.Idx) :
    (dot_S5000x256_S256x256_S5000x256_1_1_0_0_n_n.lhsIdx j k 0).val = (j 0).val := by
  simp [DotDims.lhsIdx, dot_S5000x256_S256x256_S5000x256_1_1_0_0_n_n]
  rfl

/-- On its contracted axis the left operand follows the contraction position. -/
theorem lhs_contr (j : S5000x256.Idx) (k : dot_S5000x256_S256x256_S5000x256_1_1_0_0_n_n.contr.Idx) :
    (dot_S5000x256_S256x256_S5000x256_1_1_0_0_n_n.lhsIdx j k 1).val = (k ⟨0, by decide⟩).val :=
  dot_S5000x256_S256x256_S5000x256_1_1_0_0_n_n.lhsIdx_val_of_single rfl j k

/-- On its free axis the right operand follows the output's column. -/
theorem rhs_row (j : S5000x256.Idx) (k : dot_S5000x256_S256x256_S5000x256_1_1_0_0_n_n.contr.Idx) :
    (dot_S5000x256_S256x256_S5000x256_1_1_0_0_n_n.rhsIdx j k 0).val = (j 1).val := by
  simp [DotDims.rhsIdx, dot_S5000x256_S256x256_S5000x256_1_1_0_0_n_n]
  rfl

/-- On its contracted axis the right operand follows the contraction position. -/
theorem rhs_contr (j : S5000x256.Idx) (k : dot_S5000x256_S256x256_S5000x256_1_1_0_0_n_n.contr.Idx) :
    (dot_S5000x256_S256x256_S5000x256_1_1_0_0_n_n.rhsIdx j k 1).val = (k ⟨0, by decide⟩).val :=
  dot_S5000x256_S256x256_S5000x256_1_1_0_0_n_n.rhsIdx_val_of_single rfl j k

/-! ## The body's payload at an index -/

/-- Entry `(p, q)` of what the body stores is the sum over `k` of `x0 (p, k) · x1 (q, k)`: the format
    changes are the identity on extended reals and the accumulator is the zero splat. -/
theorem payload_apply (x0 : Vec Ideal S5000x256 .f32) (x1 : Vec Ideal S256x256 .f32) (p : Fin 5000) (q : Fin 256) :
    (k0_pay1 x0 x1 (ix2 p q) : EReal) = ∑ k : Fin 256, (x0 (ix2 p k) : EReal) * (x1 (ix2 q k) : EReal) := by
  unfold k0_pay1
  simp only [matmul]
  rw [Ideal.matmul_constant_zero_apply,
    ← Equiv.sum_comp (contrEquiv1 dot_S5000x256_S256x256_S5000x256_1_1_0_0_n_n 256 rfl rfl).symm]
  refine Finset.sum_congr rfl fun k _ => ?_
  have ck := contrEquiv1_symm_val dot_S5000x256_S256x256_S5000x256_1_1_0_0_n_n 256 rfl rfl k
  have hl : dot_S5000x256_S256x256_S5000x256_1_1_0_0_n_n.lhsIdx (ix2 p q)
      ((contrEquiv1 dot_S5000x256_S256x256_S5000x256_1_1_0_0_n_n 256 rfl rfl).symm k) = ix2 p k := by
    funext a; apply Fin.ext
    match a with
    | ⟨0, _⟩ => exact lhs_row _ _
    | ⟨1, _⟩ => exact (lhs_contr _ _).trans ck
  have hr : dot_S5000x256_S256x256_S5000x256_1_1_0_0_n_n.rhsIdx (ix2 p q)
      ((contrEquiv1 dot_S5000x256_S256x256_S5000x256_1_1_0_0_n_n 256 rfl rfl).symm k) = ix2 q k := by
    funext a; apply Fin.ext
    match a with
    | ⟨0, _⟩ => exact rhs_row _ _
    | ⟨1, _⟩ => exact (rhs_contr _ _).trans ck
  rw [truncf_apply, truncf_apply, hl, hr]

/-- The same at any index of the block, its two coordinates named. -/
theorem payload_at (x0 : Vec Ideal S5000x256 .f32) (x1 : Vec Ideal S256x256 .f32) (y : S5000x256.Idx)
    (p : Fin 5000) (q : Fin 256) (hp : (y 0).val = p.val) (hq : (y 1).val = q.val) :
    (k0_pay1 x0 x1 y : EReal) = ∑ k : Fin 256, (x0 (ix2 p k) : EReal) * (x1 (ix2 q k) : EReal) := by
  obtain rfl : y = ix2 p q := by
    funext a; apply Fin.ext
    match a with
    | ⟨0, _⟩ => exact hp
    | ⟨1, _⟩ => exact hq
  exact payload_apply x0 x1 p q

/-- The specification at an index whose two coordinates are named. -/
theorem proj_at (A0 : Spec.I2 50000 256 → EReal) (A1 : Spec.I2 256 256 → EReal) (i : Spec.I2 50000 256)
    (r : Fin 50000) (q : Fin 256) (hr : (i 0).val = r.val) (hq : (i 1).val = q.val) :
    Spec.proj A0 A1 i = ∑ k : Fin 256, A0 (ix2 r k) * A1 (ix2 q k) := by
  obtain rfl : i = ix2 r q := by
    funext a; apply Fin.ext
    match a with
    | ⟨0, _⟩ => exact hr
    | ⟨1, _⟩ => exact hq
  rfl

/-! ## From the blocks to the array -/

theorem zero_off : (![0, 0] : Fin 2 → Nat) = fun _ => 0 := funext fun a => by fin_cases a <;> rfl

/-- The index maps over the ten grid points: the left operand's and the output's row block is the point's
    number, every other block index is zero. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- The left operand's block at point `t` is rows `5000 t … 5000 t + 4999` of its array. -/
theorem lhs_block_apply (c : Dev nD) (t : Fin cfg0.N) (p : Fin 5000) (k : Fin 256) (r : Fin 50000)
    (hr : r.val = 5000 * t.val + p.val) :
    ((iblk0 V c 0 t : Vec Ideal S5000x256 .f32) (ix2 p k) : EReal)
      = (V c (Pipeline.arrRef spec0 0) : Spec.I2 50000 256 → EReal) (ix2 r k) := by
  obtain ⟨e0, e1, -, -, -, -⟩ := idx_facts t
  unfold iblk0
  rw [View.read_apply]
  show V c (Pipeline.arrRef spec0 0) _ = V c (Pipeline.arrRef spec0 0) _
  congr 1
  funext a; apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The right operand's block at every point is its whole array. -/
theorem rhs_block_apply (c : Dev nD) (t : Fin cfg0.N) (q : Fin 256) (k : Fin 256) :
    ((iblk0 V c 1 t : Vec Ideal S256x256 .f32) (ix2 q k) : EReal)
      = (V c (Pipeline.arrRef spec0 1) : Spec.I2 256 256 → EReal) (ix2 q k) := by
  obtain ⟨-, -, e2, e3, -, -⟩ := idx_facts t
  unfold iblk0
  rw [View.read_apply]
  show V c (Pipeline.arrRef spec0 1) _ = V c (Pipeline.arrRef spec0 1) _
  congr 1
  funext a; apply Fin.ext
  match a with
  | ⟨0, _⟩ => show win0_1.index t (0 : Fin 2) * 256 + 1 * q.val = q.val; rw [e2]; omega
  | ⟨1, _⟩ => show win0_1.index t (1 : Fin 2) * 256 + 1 * k.val = k.val; rw [e3]; omega

/-- What point `t` writes back is block `t` of the product `x · wᵀ` of the two arrays as the region finds them. -/
theorem flushed_eq (c : Dev nD) (t : Fin cfg0.N) :
    (dat0 (F := Ideal) V c).flushed 2 t = ((cfg0.win 2).blk t).view.read (Elt Ideal)
      (Spec.proj (V c (Pipeline.arrRef spec0 0) : Spec.I2 50000 256 → EReal) (V c (Pipeline.arrRef spec0 1) : Spec.I2 256 256 → EReal)) := by
  show (cfg0.win 2).cut (grid0.coords t) ((dat0 V c).after 2 t) = _
  rw [after0_2]
  unfold out0_2
  rw [View.canon_unit_zero zero_off]
  simp only [View.ld_unit_zero (S := S5000x256) zero_off, View.ld_unit_zero (S := S256x256) zero_off]
  obtain ⟨-, -, -, -, e4, e5⟩ := idx_facts t
  have hN : cfg0.N = 10 := N_0
  have ht : t.val < 10 := by have := t.isLt; omega
  funext j
  have hj0 : (j 0).val < 5000 := (j 0).isLt
  have hj1 : (j 1).val < 256 := (j 1).isLt
  rw [View.read_apply]
  show (k0_pay1 (iblk0 V c 0 t) (iblk0 V c 1 t) ((cfg0.win 2).xinj (grid0.coords t) j) : EReal)
    = Spec.proj _ _ (((cfg0.win 2).blk t).view.emb j)
  refine (payload_at (iblk0 V c 0 t) (iblk0 V c 1 t) _ ⟨(j 0).val, hj0⟩ ⟨(j 1).val, hj1⟩ rfl rfl).trans ?_
  refine Eq.trans ?_ (proj_at _ _ _ ⟨5000 * t.val + (j 0).val, by omega⟩ ⟨(j 1).val, hj1⟩ ?_ ?_).symm
  · refine Finset.sum_congr rfl fun k _ => ?_
    rw [lhs_block_apply V c t ⟨(j 0).val, hj0⟩ k ⟨5000 * t.val + (j 0).val, by omega⟩ rfl, rhs_block_apply V c t ⟨(j 1).val, hj1⟩ k]
  · show win0_2.index t (0 : Fin 2) * 5000 + 1 * (j 0).val = 5000 * t.val + (j 0).val
    rw [e4]; omega
  · show win0_2.index t (1 : Fin 2) * 256 + 1 * (j 1).val = (j 1).val
    rw [e5]; omega

/-- An index of the array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v4).slice (win0_2.rect t)).set ↔ _
  rw [View.set_slice_whole, Rect.mem_set_unit]
  exact Iff.rfl

/-- Row `r` of the array lies in the block of point `r / 5000`, and every point writes its block back. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  obtain ⟨t, htv⟩ : ∃ t : Fin cfg0.N, t.val = (i 0).val / 5000 := ⟨⟨(i 0).val / 5000, by omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4, htv]; omega
  | ⟨1, _⟩ =>
    show win0_2.index t (1 : Fin 2) * 256 ≤ (i 1).val ∧ (i 1).val < win0_2.index t (1 : Fin 2) * 256 + 256
    rw [e5]; omega

/-- The output array after the region: the product `x · wᵀ` of the two arrays the region finds. -/
theorem final (c : Dev nD) :
    ((dat0 (F := Ideal) V c).arrAt 2 cfg0.N : Spec.I2 50000 256 → EReal)
      = Spec.proj (V c (Pipeline.arrRef spec0 0) : Spec.I2 50000 256 → EReal) (V c (Pipeline.arrRef spec0 1) : Spec.I2 256 256 → EReal) :=
  (dat0 (F := Ideal) V c).arrAt_eq_of_cover 2
    (Spec.proj (V c (Pipeline.arrRef spec0 0) : Spec.I2 50000 256 → EReal) (V c (Pipeline.arrRef spec0 1) : Spec.I2 256 256 → EReal))
    (fun t _ => flushed_eq V c t) covered

end Cert.KernelIdeal.R0Value

end
-- ==== Proof.R1Value.lean ====
import proofs.«159324_j40638980555154_1_alg».proof.Proof.Gen.KernelIdeal.Frame
import proofs.«159324_j40638980555154_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.R1Value

open Cert.KernelIdeal Cert.KernelIdeal.Gen

/-! # The value of the second region: the Gram matrix of the rectified rows

The grid has ten points. Point `t` reads rows `5000 t … 5000 t + 4999` of the `[50000, 256]` array and the bias
row, applies the leaky rectifier to `row + bias`, and adds to the carried `[256, 256]` block the product of the
rectified block with itself, both factors contracted over the block's rows. The first point starts from the zero
block; the block is written back after the last point only. So the array ends holding, at `(p, q)`, the sum over all
50000 rows `R` of `Y(R, p) · Y(R, q)`, `Y` the rectified array: over the extended reals the ten blocks' sums regroup
freely into the one sum. -/

/-! ## What each control case leaves in the carried block -/

section Pieces
variable {F : FTy → Type} [FloatOps F]

theorem hz : (![0, 0] : Fin 2 → Nat) = fun _ => 0 := funext fun a => by fin_cases a <;> rfl

/-- Away from the first point the body reads the carried block `xo` and stores the update of it. -/
theorem out_B (c : Dev nD) (i : grid1.Coords) (a1 : Memref sig .tc .vmem S5000x256 .f32) (h1 : a1.IsWhole)
    (a2 : Memref sig .tc .vmem S1x256 .f32) (h2 : a2.IsWhole) (a3 : Memref sig .tc .vmem S256x256 .f32) (h3 : a3.IsWhole)
    (hc : ¬cond1_0 i) (x : Vec F S5000x256 .f32) (b : Vec F S1x256 .f32) (xo : Vec F S256x256 .f32) :
    out1_B_2 c i a1 h1 a2 h2 a3 h3 hc x b xo = k1_pay2 x b xo := by
  unfold out1_B_2
  rw [View.read_writes_eq_canon _ _ _ (cover1_B_2 c i a1 h1 a2 h2 a3 h3 hc x b xo)]
  unfold kernelRun1_B
  dsimp only
  sl_unfold_words
  rw [View.canon_unit_zero hz]
  simp only [View.readAt_eq_ld, h1.read_unread, h2.read_unread, h3.read_unread,
    View.ld_unit_zero (S := S5000x256) hz, View.ld_unit_zero (S := S1x256) hz, View.ld_unit_zero (S := S256x256) hz]

/-- At the first point the body stores the zero block, reads it back, and stores the update of it. -/
theorem out_A (c : Dev nD) (i : grid1.Coords) (a1 : Memref sig .tc .vmem S5000x256 .f32) (h1 : a1.IsWhole)
    (a2 : Memref sig .tc .vmem S1x256 .f32) (h2 : a2.IsWhole) (a3 : Memref sig .tc .vmem S256x256 .f32) (h3 : a3.IsWhole)
    (hc : cond1_0 i) (x : Vec F S5000x256 .f32) (b : Vec F S1x256 .f32) :
    out1_A_2 c i a1 h1 a2 h2 a3 h3 hc x b = k1_pay2 x b (k1_pay1 (F := F)) := by
  unfold out1_A_2
  rw [View.read_writes_eq_canon _ _ _ (cover1_A_2 c i a1 h1 a2 h2 a3 h3 hc x b)]
  unfold kernelRun1_A
  dsimp only
  sl_unfold_words
  rw [View.canon_cons_unit_zero (S := S256x256) hz, View.readCov_unit_zero (S := S256x256) _ hz]
  simp only [View.readAt_eq_ld, h1.read_unread, h2.read_unread,
    View.ld_unit_zero (S := S5000x256) hz, View.ld_unit_zero (S := S1x256) hz]

end Pieces

/-! ## The update at an index, over the extended reals -/

/-- The rectified rows of one block: entry `(r, j)` is the rectifier of `x(r,j) + b(0,j)`. -/
def yv (x : FVec Ideal S5000x256 .f32) (b : FVec Ideal S1x256 .f32) : FVec Ideal S5000x256 .bf16 :=
  truncf .bf16
    (select (cmpf .oge (addf x (broadcastTo S5000x256 b broadcasts_S1x256_S5000x256))
        (broadcast S5000x256 (Scalar.ofBits (F := Ideal) .f32 0x00000000#32)))
      (addf x (broadcastTo S5000x256 b broadcasts_S1x256_S5000x256))
      (mulf (broadcast S5000x256 (Scalar.ofBits (F := Ideal) .f32 0x3C23D70A#32))
        (addf x (broadcastTo S5000x256 b broadcasts_S1x256_S5000x256))))
    bitsLt_bf16_f32

theorem yv_apply (x : FVec Ideal S5000x256 .f32) (b : FVec Ideal S1x256 .f32) (r : Fin 5000) (j : Fin 256) :
    yv x b (ix2 r j) = Spec.lrelu (x (ix2 r j) + b (ix2 (0 : Fin 1) j)) := by
  unfold yv Spec.lrelu
  rw [truncf_apply, select_apply, cmpf_apply, mulf_apply, addf_apply, broadcast_apply, broadcast_apply,
    broadcastTo_1b_ab_apply]
  rfl

/-- The update is the carried block plus the product of the rectified rows with themselves, both contracted on the row axis. -/
theorem pay2_eq (x : FVec Ideal S5000x256 .f32) (b : FVec Ideal S1x256 .f32) (acc : FVec Ideal S256x256 .f32) :
    k1_pay2 (F := Ideal) x b acc
      = addf acc (matmul dot_S5000x256_S5000x256_S256x256_0_0_1_1_n_n none (yv x b) (yv x b)
          (constant (F := Ideal) S256x256 .f32 0x00000000#32)) := by
  unfold k1_pay2 yv
  simp only [shapeCast_self]

/-- The contraction record of the product: both operands contracted on their row axis. -/
abbrev DG : DotDims S5000x256 S5000x256 S256x256 := dot_S5000x256_S5000x256_S256x256_0_0_1_1_n_n

theorem lhs_row (j : S256x256.Idx) (k : DG.contr.Idx) :
    (dot_S5000x256_S5000x256_S256x256_0_0_1_1_n_n.lhsIdx j k 0).val = (k ⟨0, by decide⟩).val :=
  dot_S5000x256_S5000x256_S256x256_0_0_1_1_n_n.lhsIdx_val_of_single (cl := 0) rfl j k

theorem rhs_row (j : S256x256.Idx) (k : DG.contr.Idx) :
    (dot_S5000x256_S5000x256_S256x256_0_0_1_1_n_n.rhsIdx j k 0).val = (k ⟨0, by decide⟩).val :=
  dot_S5000x256_S5000x256_S256x256_0_0_1_1_n_n.rhsIdx_val_of_single (cr := 0) rfl j k

theorem lhs_col (j : S256x256.Idx) (k : DG.contr.Idx) :
    (dot_S5000x256_S5000x256_S256x256_0_0_1_1_n_n.lhsIdx j k 1).val = (j 0).val := by
  unfold DotDims.lhsIdx
  rw [dif_neg (show ¬(1 : Fin S5000x256.rank) ∈ dot_S5000x256_S5000x256_S256x256_0_0_1_1_n_n.lhsBatch by decide),
    dif_pos (show (1 : Fin S5000x256.rank) ∈ dot_S5000x256_S5000x256_S256x256_0_0_1_1_n_n.lhsNonContracting by decide)]
  rfl

theorem rhs_col (j : S256x256.Idx) (k : DG.contr.Idx) :
    (dot_S5000x256_S5000x256_S256x256_0_0_1_1_n_n.rhsIdx j k 1).val = (j 1).val := by
  unfold DotDims.rhsIdx
  rw [dif_neg (show ¬(1 : Fin S5000x256.rank) ∈ dot_S5000x256_S5000x256_S256x256_0_0_1_1_n_n.rhsBatch by decide),
    dif_pos (show (1 : Fin S5000x256.rank) ∈ dot_S5000x256_S5000x256_S256x256_0_0_1_1_n_n.rhsNonContracting by decide)]
  rfl

/-- Entry `(p, q)` of the product is the sum over the block's rows of the products of the two columns' entries. -/
theorem gramBlock_apply (y : FVec Ideal S5000x256 .bf16) (p q : Fin 256) :
    matmul dot_S5000x256_S5000x256_S256x256_0_0_1_1_n_n none y y (constant (F := Ideal) S256x256 .f32 0x00000000#32) (ix2 p q)
      = ∑ r : Fin 5000, y (ix2 r p) * y (ix2 r q) := by
  show FloatOps.matmul _ none y y _ (ix2 p q) = _
  rw [Ideal.matmul_constant_zero_apply, ← Equiv.sum_comp (contrEquiv1 DG 5000 rfl rfl).symm]
  refine Finset.sum_congr rfl fun r _ => ?_
  have cv := contrEquiv1_symm_val DG 5000 rfl rfl r
  have l : DG.lhsIdx (ix2 p q) ((contrEquiv1 DG 5000 rfl rfl).symm r) = ix2 r p := by
    funext ax; apply Fin.ext
    match ax with
    | ⟨0, _⟩ => exact (lhs_row _ _).trans cv
    | ⟨1, _⟩ => exact lhs_col _ _
  have rr : DG.rhsIdx (ix2 p q) ((contrEquiv1 DG 5000 rfl rfl).symm r) = ix2 r q := by
    funext ax; apply Fin.ext
    match ax with
    | ⟨0, _⟩ => exact (rhs_row _ _).trans cv
    | ⟨1, _⟩ => exact rhs_col _ _
  rw [l, rr]

/-- The update of a carried block at an index: the block there plus the sum over the input block's rows. -/
theorem update_apply (x : FVec Ideal S5000x256 .f32) (b : FVec Ideal S1x256 .f32) (acc : FVec Ideal S256x256 .f32)
    (p q : Fin 256) :
    k1_pay2 (F := Ideal) x b acc (ix2 p q)
      = acc (ix2 p q) + ∑ r : Fin 5000, Spec.lrelu (x (ix2 r p) + b (ix2 (0 : Fin 1) p))
          * Spec.lrelu (x (ix2 r q) + b (ix2 (0 : Fin 1) q)) := by
  rw [pay2_eq, addf_apply, gramBlock_apply]
  refine congrArg (acc (ix2 p q) + ·) (Finset.sum_congr rfl fun r _ => ?_)
  rw [yv_apply, yv_apply]

/-- The zero block at an index. -/
theorem zero_apply (i : S256x256.Idx) : k1_pay1 (F := Ideal) i = 0 := Ideal.ofBits_zero_f32

/-! ## The windows' blocks against the arrays -/

/-- Row `r` of row block `s` (5000 rows each) is row `5000 s + r` of the array. -/
def row (s : Fin 10) (r : Fin 5000) : Fin 50000 :=
  ⟨5000 * s.val + r.val, by have := s.isLt; have := r.isLt; omega⟩

section Blocks
variable (V : (c : Dev nD) → (b : Ref sig .tc) → Buf (Elt Ideal) ((c : Thread nD τ).loc b))

/-- The row block the first window holds at point `t`, the bias row the second holds, and the two arrays. -/
abbrev xblk (c : Dev nD) (t : Fin cfg1.N) : FVec Ideal S5000x256 .f32 := iblk1 V c 0 t
abbrev bblk (c : Dev nD) (t : Fin cfg1.N) : FVec Ideal S1x256 .f32 := iblk1 V c 1 t
abbrev Narr (c : Dev nD) : Spec.I2 50000 256 → EReal := V c (Pipeline.arrRef spec1 0)
abbrev Barr (c : Dev nD) : Spec.I2 1 256 → EReal := V c (Pipeline.arrRef spec1 1)

/-- The first window's block index at point `t` is `(t, 0)`, the second's `(0, 0)`: decided over the grid. -/
theorem idx_x : ∀ t : Fin cfg1.N, win1_0.index t 0 = t.val ∧ win1_0.index t 1 = 0 :=
  (by decide +kernel : ∀ t : Fin grid1.N, win1_0.index t 0 = t.val ∧ win1_0.index t 1 = 0)
theorem idx_b : ∀ t : Fin cfg1.N, win1_1.index t 0 = 0 ∧ win1_1.index t 1 = 0 :=
  (by decide +kernel : ∀ t : Fin grid1.N, win1_1.index t 0 = 0 ∧ win1_1.index t 1 = 0)

theorem xblk_apply (c : Dev nD) (t : Fin cfg1.N) (r : Fin 5000) (j : Fin 256) :
    xblk V c t (ix2 r j) = Narr V c (ix2 (row (t.cast N_1) r) j) := by
  unfold xblk iblk1
  rw [View.read_apply]
  show V c (Pipeline.arrRef spec1 0) _ = V c (Pipeline.arrRef spec1 0) _
  congr 1
  funext a
  apply Fin.ext
  match a with
  | ⟨0, _⟩ => show win1_0.index t 0 * 5000 + 1 * r.val = 5000 * t.val + r.val; rw [(idx_x t).1]; omega
  | ⟨1, _⟩ => show win1_0.index t 1 * 256 + 1 * j.val = j.val; rw [(idx_x t).2]; omega

theorem bblk_apply (c : Dev nD) (t : Fin cfg1.N) (j : Fin 256) :
    bblk V c t (ix2 (0 : Fin 1) j) = Barr V c (ix2 (0 : Fin 1) j) := by
  unfold bblk iblk1
  rw [View.read_apply]
  show V c (Pipeline.arrRef spec1 1) _ = V c (Pipeline.arrRef spec1 1) _
  congr 1
  funext a
  apply Fin.ext
  match a with
  | ⟨0, _⟩ => show win1_1.index t 0 * 1 + 1 * 0 = 0; rw [(idx_b t).1]
  | ⟨1, _⟩ => show win1_1.index t 1 * 256 + 1 * j.val = j.val; rw [(idx_b t).2]; omega

end Blocks

/-! ## The carried block after each point -/

/-- A sum over the 50000 rows is the sum over the ten row blocks of the sums over each block's 5000 rows. -/
theorem sum_rows {M : Type} [AddCommMonoid M] (f : Fin 50000 → M) :
    ∑ R : Fin 50000, f R = ∑ s : Fin 10, ∑ r : Fin 5000, f (row s r) := by
  have e := Fintype.sum_equiv (finProdFinEquiv (m := 10) (n := 5000))
    (fun sr : Fin 10 × Fin 5000 => f (row sr.1 sr.2)) (fun R : Fin (10 * 5000) => f R)
    (fun sr => congrArg f (Fin.ext (by
      show 5000 * sr.1.val + sr.2.val = sr.2.val + 5000 * sr.1.val
      omega)))
  rw [Fintype.sum_prod_type] at e
  exact e.symm

section Points
variable (V : (c : Dev nD) → (b : Ref sig .tc) → Buf (Elt Ideal) ((c : Thread nD τ).loc b))

/-- The rectified array: the rectifier of every row of the first array plus the bias row. -/
abbrev Yarr (c : Dev nD) : Spec.I2 50000 256 → EReal :=
  Spec.act (Narr V c) (fun j : Fin 256 => Barr V c (ix2 (0 : Fin 1) j))

/-- What row block `s` adds to entry `(p, q)`: the sum over its rows of the products of the two columns' entries
    (nothing past the tenth block). -/
def blockSum (c : Dev nD) (s : ℕ) (p q : Fin 256) : EReal :=
  if h : s < 10 then ∑ r : Fin 5000, Yarr V c (ix2 (row ⟨s, h⟩ r) p) * Yarr V c (ix2 (row ⟨s, h⟩ r) q) else 0

/-- The update at point `t` adds row block `t`'s sum to the carried block. -/
theorem step_apply (c : Dev nD) (t : Fin cfg1.N) (acc : FVec Ideal S256x256 .f32) (p q : Fin 256) :
    k1_pay2 (F := Ideal) (xblk V c t) (bblk V c t) acc (ix2 p q) = acc (ix2 p q) + blockSum V c t.val p q := by
  have ht : t.val < 10 := lt_of_lt_of_eq t.isLt N_1
  refine (update_apply (xblk V c t) (bblk V c t) acc p q).trans (congrArg (acc (ix2 p q) + ·) ?_)
  unfold blockSum
  rw [dif_pos ht]
  refine Finset.sum_congr rfl fun r _ => ?_
  rw [xblk_apply V c t r p, xblk_apply V c t r q, bblk_apply V c t p, bblk_apply V c t q]
  rfl

/-- After point `n` the carried block holds, at `(p, q)`, the sums of row blocks `0 … n`: by induction on the point. -/
theorem outsAt_apply (c : Dev nD) : ∀ (n : ℕ) (h : n < cfg1.N) (p q : Fin 256),
    (outsAt1 V c n h : FVec Ideal S256x256 .f32) (ix2 p q) = ∑ s ∈ Finset.range (n + 1), blockSum V c s p q
  | 0, h, p, q => by
    rw [outsAt1_A V c ⟨0, h⟩ (Nat.zero_mod 10), out_A]
    refine (step_apply V c ⟨0, h⟩ (k1_pay1 (F := Ideal)) p q).trans ?_
    rw [zero_apply, zero_add, Finset.sum_range_one]
  | n + 1, h, p, q => by
    have hN : cfg1.N = 10 := N_1
    have hB : ¬(⟨n + 1, h⟩ : Fin cfg1.N).val % 10 = 0 := by dsimp only; omega
    rw [outsAt1_B V c ⟨n + 1, h⟩ hB]
    dsimp only
    rw [out_B]
    refine (step_apply V c ⟨n + 1, h⟩ _ p q).trans ?_
    rw [Finset.sum_range_succ _ (n + 1)]
    exact congrArg (· + blockSum V c (n + 1) p q) (outsAt_apply c n _ p q)

end Points

/-! ## The write-back at the last point, and the array it leaves -/

section Final
variable (V : (c : Dev nD) → (b : Ref sig .tc) → Buf (Elt Ideal) ((c : Thread nD τ).loc b))

/-- The result: every entry `(p, q)` the sum over all 50000 rows of the rectified array's products. -/
abbrev G (c : Dev nD) : Spec.I2 256 256 → EReal := Spec.gram (Yarr V c)

/-- After the last point the carried block holds the result: the ten row blocks' sums are the sum over all rows. -/
theorem outsAt_last (c : Dev nD) (h : 9 < cfg1.N) : (outsAt1 V c 9 h : FVec Ideal S256x256 .f32) = G V c := by
  funext i
  obtain ⟨p, q, rfl⟩ : ∃ (p q : Fin 256), i = ix2 p q := ⟨i 0, i 1, eq_ix2 i⟩
  rw [outsAt_apply]
  show ∑ s ∈ Finset.range 10, blockSum V c s p q = ∑ R : Fin 50000, Yarr V c (ix2 R p) * Yarr V c (ix2 R q)
  rw [sum_rows, ← Fin.sum_univ_eq_sum_range (fun s => blockSum V c s p q) 10]
  refine Finset.sum_congr rfl fun s _ => ?_
  unfold blockSum
  rw [dif_pos s.isLt]

/-- The one write-back, at the last point, writes the result: the block is the whole array, read through zero offsets. -/
theorem flushed_eq (c : Dev nD) (t : Fin cfg1.N) (hf : (cfg1.win 2).flush t = true) :
    (dat1 V c).flushed 2 t = ((cfg1.win 2).blk t).view.read (Elt Ideal) (G V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hl : (outsAt1 V c t1_9.val t1_9.isLt : FVec Ideal S256x256 .f32) = G V c := outsAt_last V c _
  rw [hl]
  have hz' : (fun a => win1_2.index t1_9 a * main_v49.ty.shape.size a) = fun _ => 0 :=
    funext fun a => by fin_cases a <;> decide
  exact (Memref.read_access_unit_zero (Elt Ideal) main_v49 hz' (fun a => by rw [congrFun hz' a]; simp) (G V c)).symm

end Final

variable (V : (c : Dev nD) → (b : Ref sig .tc) → Buf (Elt Ideal) ((c : Thread nD τ).loc b))

theorem final (c : Dev nD) :
    ((dat1 (F := Ideal) V c).arrAt 2 cfg1.N : Spec.I2 256 256 → EReal)
      = Spec.gram (Spec.act (V c (Pipeline.arrRef spec1 0) : Spec.I2 50000 256 → EReal)
          (fun j : Fin 256 => (V c (Pipeline.arrRef spec1 1) : Spec.I2 1 256 → EReal) (ix2 0 j))) :=
  (dat1 (F := Ideal) V c).arrAt_eq_of_cover 2 (G V c) (flushed_eq V c) fun i =>
    ⟨t1_9, (flush1_2 t1_9).mpr rfl, by
      show i ∈ ((View.whole main_v49).slice (win1_2.rect t1_9)).set
      rw [View.set_slice_whole, Rect.mem_set_unit]
      intro a
      have h0 : (i 0 : Nat) < 256 := (i 0).isLt
      have h1 : (i 1 : Nat) < 256 := (i 1).isLt
      match a with
      | ⟨0, _⟩ =>
        show win1_2.index t1_9 0 * win1_2.size 0 ≤ (i 0 : Nat)
          ∧ (i 0 : Nat) < win1_2.index t1_9 0 * win1_2.size 0 + win1_2.xsize (grid1.coords t1_9) 0
        rw [show win1_2.index t1_9 0 * win1_2.size 0 = 0 from by decide +kernel,
          show win1_2.xsize (grid1.coords t1_9) 0 = 256 from by decide +kernel]
        omega
      | ⟨1, _⟩ =>
        show win1_2.index t1_9 1 * win1_2.size 1 ≤ (i 1 : Nat)
          ∧ (i 1 : Nat) < win1_2.index t1_9 1 * win1_2.size 1 + win1_2.xsize (grid1.coords t1_9) 1
        rw [show win1_2.index t1_9 1 * win1_2.size 1 = 0 from by decide +kernel,
          show win1_2.xsize (grid1.coords t1_9) 1 = 256 from by decide +kernel]
        omega⟩

end Cert.KernelIdeal.R1Value

end
-- ==== Proof.R2Value.lean ====
import proofs.«159324_j40638980555154_1_alg».proof.Proof.Gen.KernelIdeal.Frame
import proofs.«159324_j40638980555154_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.R2Value

open Cert.KernelIdeal Cert.KernelIdeal.Gen

/-! ## The contraction's operand indices

The product contracts axis 1 of both operands: at output entry `(p, q)` and contraction position `k` the left
operand is read at `(p, k)` and the right operand at `(q, k)`. -/

theorem lhs_axis0 (j : S256x256.Idx) (k : dot_S256x256_S256x256_S256x256_1_1_0_0_n_n.contr.Idx) :
    (dot_S256x256_S256x256_S256x256_1_1_0_0_n_n.lhsIdx j k 0 : ℕ) = j 0 := by
  simp [DotDims.lhsIdx, dot_S256x256_S256x256_S256x256_1_1_0_0_n_n]; rfl
theorem lhs_axis1 (j : S256x256.Idx) (k : dot_S256x256_S256x256_S256x256_1_1_0_0_n_n.contr.Idx) :
    (dot_S256x256_S256x256_S256x256_1_1_0_0_n_n.lhsIdx j k 1 : ℕ) = k ⟨0, by decide⟩ := by
  simp [DotDims.lhsIdx, dot_S256x256_S256x256_S256x256_1_1_0_0_n_n]; rfl
theorem rhs_axis0 (j : S256x256.Idx) (k : dot_S256x256_S256x256_S256x256_1_1_0_0_n_n.contr.Idx) :
    (dot_S256x256_S256x256_S256x256_1_1_0_0_n_n.rhsIdx j k 0 : ℕ) = j 1 := by
  simp [DotDims.rhsIdx, dot_S256x256_S256x256_S256x256_1_1_0_0_n_n]; rfl
theorem rhs_axis1 (j : S256x256.Idx) (k : dot_S256x256_S256x256_S256x256_1_1_0_0_n_n.contr.Idx) :
    (dot_S256x256_S256x256_S256x256_1_1_0_0_n_n.rhsIdx j k 1 : ℕ) = k ⟨0, by decide⟩ := by
  simp [DotDims.rhsIdx, dot_S256x256_S256x256_S256x256_1_1_0_0_n_n]; rfl

/-- The product into the zero splat, read at entry `(p, q)`: the sum over `k` of `g(p,k) · w(q,k)`. -/
theorem matmul_at (g w : FVec Ideal S256x256 .bf16) (p q : Fin 256) :
    matmul (F := Ideal) dot_S256x256_S256x256_S256x256_1_1_0_0_n_n none g w (constant S256x256 .f32 0x00000000#32) (ix2 p q)
      = ∑ k : Fin 256, g (ix2 p k) * w (ix2 q k) := by
  simp only [matmul]
  rw [Ideal.matmul_constant_zero_apply,
    ← Equiv.sum_comp (contrEquiv1 dot_S256x256_S256x256_S256x256_1_1_0_0_n_n 256 rfl rfl).symm]
  refine Finset.sum_congr rfl fun k _ => ?_
  have hk := contrEquiv1_symm_val dot_S256x256_S256x256_S256x256_1_1_0_0_n_n 256 rfl rfl k
  have hl : dot_S256x256_S256x256_S256x256_1_1_0_0_n_n.lhsIdx (ix2 p q)
      ((contrEquiv1 dot_S256x256_S256x256_S256x256_1_1_0_0_n_n 256 rfl rfl).symm k) = ix2 p k := by
    funext a; apply Fin.ext
    match a with
    | ⟨0, _⟩ => exact lhs_axis0 _ _
    | ⟨1, _⟩ => exact (lhs_axis1 _ _).trans hk
  have hr : dot_S256x256_S256x256_S256x256_1_1_0_0_n_n.rhsIdx (ix2 p q)
      ((contrEquiv1 dot_S256x256_S256x256_S256x256_1_1_0_0_n_n 256 rfl rfl).symm k) = ix2 q k := by
    funext a; apply Fin.ext
    match a with
    | ⟨0, _⟩ => exact rhs_axis0 _ _
    | ⟨1, _⟩ => exact (rhs_axis1 _ _).trans hk
  rw [hl, hr]

/-- The body's payload at entry `(p, q)`: the rectifier of the product's entry plus the bias row's `q`-th entry. -/
theorem pay_apply (g w : Vec Ideal S256x256 .f32) (b : Vec Ideal S1x256 .f32) (p q : Fin 256) :
    k2_pay1 (F := Ideal) g w b (ix2 p q)
      = Spec.lrelu ((∑ k : Fin 256, g (ix2 p k) * w (ix2 q k)) + b (ix2 0 q)) := by
  unfold k2_pay1
  simp only [shapeCast_self]
  rw [select_apply, cmpf_apply, mulf_apply, addf_apply, broadcast_apply, broadcast_apply, broadcastTo_1b_ab_apply, matmul_at]
  rfl

/-- So the payload, as a whole array, is the dense head of its three operands. -/
theorem pay_eq (g w : Vec Ideal S256x256 .f32) (b : Vec Ideal S1x256 .f32) :
    (k2_pay1 (F := Ideal) g w b : Spec.I2 256 256 → EReal) = Spec.head g w (fun j : Fin 256 => b (ix2 0 j)) := by
  funext i
  obtain ⟨p, q, rfl⟩ : ∃ (p q : Fin 256), i = ix2 p q := ⟨i 0, i 1, eq_ix2 i⟩
  rw [pay_apply]
  rfl

/-! ## From the one block to the array

The grid has one point and every window's block is its whole array: all four index maps are constantly zero. -/

theorem zeros2 : (![0, 0] : Fin 2 → Nat) = fun _ => 0 := funext fun a => by fin_cases a <;> rfl

/-- The printed index maps, decided over the grid: every block index is zero on both axes. -/
theorem idx_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

variable (V : (c : Dev nD) → (b : Ref sig .tc) → Buf (Elt Ideal) ((c : Thread nD τ).loc b))

/-- Window 0's block at the point is its whole array. -/
theorem iblk_0 (c : Dev nD) (t : Fin cfg2.N) : iblk2 V c 0 t = V c (Pipeline.arrRef spec2 0) := by
  obtain ⟨e0, e1, -⟩ := idx_zero t
  have hz : (fun a => win2_0.index t a * main_v49.ty.shape.size a) = fun _ => 0 := funext fun a => by
    match a with
    | ⟨0, _⟩ => show win2_0.index t (0 : Fin 2) * 256 = 0; rw [e0]
    | ⟨1, _⟩ => show win2_0.index t (1 : Fin 2) * 256 = 0; rw [e1]
  unfold iblk2
  exact Memref.read_access_unit_zero (Elt Ideal) main_v49 hz (fun a => by rw [congrFun hz a]; simp) _

/-- Window 1's block at the point is its whole array. -/
theorem iblk_1 (c : Dev nD) (t : Fin cfg2.N) : iblk2 V c 1 t = V c (Pipeline.arrRef spec2 1) := by
  obtain ⟨-, -, e0, e1, -⟩ := idx_zero t
  have hz : (fun a => win2_1.index t a * main_arg3.ty.shape.size a) = fun _ => 0 := funext fun a => by
    match a with
    | ⟨0, _⟩ => show win2_1.index t (0 : Fin 2) * 256 = 0; rw [e0]
    | ⟨1, _⟩ => show win2_1.index t (1 : Fin 2) * 256 = 0; rw [e1]
  unfold iblk2
  exact Memref.read_access_unit_zero (Elt Ideal) main_arg3 hz (fun a => by rw [congrFun hz a]; simp) _

/-- Window 2's block at the point is its whole array. -/
theorem iblk_2 (c : Dev nD) (t : Fin cfg2.N) : iblk2 V c 2 t = V c (Pipeline.arrRef spec2 2) := by
  obtain ⟨-, -, -, -, e0, e1, -⟩ := idx_zero t
  have hz : (fun a => win2_2.index t a * main_v50.ty.shape.size a) = fun _ => 0 := funext fun a => by
    match a with
    | ⟨0, _⟩ => show win2_2.index t (0 : Fin 2) * 1 = 0; rw [e0]
    | ⟨1, _⟩ => show win2_2.index t (1 : Fin 2) * 256 = 0; rw [e1]
  unfold iblk2
  exact Memref.read_access_unit_zero (Elt Ideal) main_v50 hz (fun a => by rw [congrFun hz a]; simp) _

/-- The output's block at the point, read off any contents of its array, is those contents. -/
theorem blk3_read (t : Fin cfg2.N) (X : main_v51.ty.Contents (Elt Ideal)) :
    ((cfg2.win 3).blk t).view.read (Elt Ideal) X = X := by
  obtain ⟨-, -, -, -, -, -, e0, e1⟩ := idx_zero t
  have hz : (fun a => win2_3.index t a * main_v51.ty.shape.size a) = fun _ => 0 := funext fun a => by
    match a with
    | ⟨0, _⟩ => show win2_3.index t (0 : Fin 2) * 256 = 0; rw [e0]
    | ⟨1, _⟩ => show win2_3.index t (1 : Fin 2) * 256 = 0; rw [e1]
  exact Memref.read_access_unit_zero (Elt Ideal) main_v51 hz (fun a => by rw [congrFun hz a]; simp) X

/-- What the point writes back is its block of the dense head of the three operand arrays as the region finds them. -/
theorem flushed_eq (c : Dev nD) (t : Fin cfg2.N) :
    (dat2 (F := Ideal) V c).flushed 3 t = ((cfg2.win 3).blk t).view.read (Elt Ideal)
      (Spec.head (V c (Pipeline.arrRef spec2 0) : Spec.I2 256 256 → EReal) (V c (Pipeline.arrRef spec2 1) : Spec.I2 256 256 → EReal)
        (fun j : Fin 256 => (V c (Pipeline.arrRef spec2 2) : Spec.I2 1 256 → EReal) (ix2 0 j))) := by
  show (cfg2.win 3).cut (grid2.coords t) ((dat2 V c).after 3 t) = _
  rw [after2_3, blk3_read]
  unfold out2_3
  rw [View.canon_unit_zero zeros2]
  simp only [View.ld_unit_zero (S := S256x256) zeros2, View.ld_unit_zero (S := S1x256) zeros2]
  rw [iblk_0, iblk_1, iblk_2]
  exact pay_eq _ _ _

/-- An index of the array is in the point's block iff each coordinate is in the block's range on its axis. -/
theorem mem_blk (t : Fin cfg2.N) (i : S256x256.Idx) :
    i ∈ ((cfg2.win 3).blk t).view.set ↔ ∀ a : Fin 2, win2_3.index t a * S256x256.size a ≤ (i a).val ∧ (i a).val < win2_3.index t a * S256x256.size a + S256x256.size a := by
  show i ∈ ((View.whole main_v51).slice (win2_3.rect t)).set ↔ _
  rw [View.set_slice_whole, Rect.mem_set_unit]
  exact Iff.rfl

theorem final (c : Dev nD) :
    ((dat2 (F := Ideal) V c).arrAt 3 cfg2.N : Spec.I2 256 256 → EReal)
      = Spec.head (V c (Pipeline.arrRef spec2 0) : Spec.I2 256 256 → EReal) (V c (Pipeline.arrRef spec2 1) : Spec.I2 256 256 → EReal)
          (fun j : Fin 256 => (V c (Pipeline.arrRef spec2 2) : Spec.I2 1 256 → EReal) (ix2 0 j)) := by
  refine (dat2 (F := Ideal) V c).arrAt_eq_of_cover 3 _ (fun t _ => flushed_eq V c t) fun i => ⟨t2_0, flush2_3 t2_0, ?_⟩
  obtain ⟨-, -, -, -, -, -, e0, e1⟩ := idx_zero t2_0
  rw [mem_blk]
  intro a
  match a with
  | ⟨0, _⟩ =>
    show win2_3.index t2_0 (0 : Fin 2) * 256 ≤ (i 0).val ∧ (i 0).val < win2_3.index t2_0 (0 : Fin 2) * 256 + 256
    have h0 : (i 0).val < 256 := (i 0).isLt
    omega
  | ⟨1, _⟩ =>
    show win2_3.index t2_0 (1 : Fin 2) * 256 ≤ (i 1).val ∧ (i 1).val < win2_3.index t2_0 (1 : Fin 2) * 256 + 256
    have h1 : (i 1).val < 256 := (i 1).isLt
    omega

end Cert.KernelIdeal.R2Value

end
-- ==== Proof.KMid.lean ====
/-
  The kernel program's host stretch between its first and second regions, read as one function.

  Between the projection (region 0) and the Gram accumulation (region 1) the program runs 63 host operations: the two
  degree vectors and their guarded reciprocals, then two rounds of gather / accumulating scatter over the incidence
  list. `aggregate` names their composition; `W7_v47` says region 1's first input array holds it, applied to region 0's
  output and the two index rows as they stand at region 0's exit; `W7_v48` that its second input is the bias vector
  reshaped to a row.
-/
import proofs.«159324_j40638980555154_1_alg».proof.Proof.Gen.KernelIdeal.Frame
import Idealize.ShloMosaic.Lib.StableHlo.Run

noncomputable section

namespace Cert.KernelIdeal.Mid

open Idealize.ShloMosaic Idealize.ShloMosaic.TcCoe Idealize.SL.Sem
open Cert.KernelIdeal Cert.KernelIdeal.Gen

variable {F : FTy → Type} [FloatOps F]

/-- A negative index wrapped once by the axis extent `n` (jnp's indexing convention): `i + n` where `i < 0`, else `i`. -/
abbrev wrap (n : BitVec 32) (i : (⟨S800000, .i32⟩ : BufTy).Contents (Elt F)) : (⟨S800000, .i32⟩ : BufTy).Contents (Elt F) :=
  select (cmpi .slt i (broadcastInDim S800000 ![] bcast_S_S800000 (constantI S_ 32 0#32)))
    (addi i (broadcastInDim S800000 ![] bcast_S_S800000 (constantI S_ 32 n))) i

/-- The degree of every segment (a scatter-add of ones over the incidence list). -/
abbrev degree (S : Shape) (hb : S_.BroadcastsInDim S ![]) (D : ScatterDims S S800000x1 S800000)
    (ids : (⟨S800000, .i32⟩ : BufTy).Contents (Elt F)) : FVec F S .f32 :=
  Host.scatterAdd D (broadcastInDim S ![] hb (constant S_ .f32 0x00000000#32))
    (broadcastInDim S800000x1 ![0] bcast_S800000_S800000x1_0 ids)
    (broadcastInDim S800000 ![] bcast_S_S800000 (constant S_ .f32 0x3F800000#32))

/-- The reciprocal degree, zero where the degree is not positive. -/
abbrev invDegree (S : Shape) (hb : S_.BroadcastsInDim S ![]) (D : ScatterDims S S800000x1 S800000)
    (ids : (⟨S800000, .i32⟩ : BufTy).Contents (Elt F)) : FVec F S .f32 :=
  select (cmpf .ogt (degree S hb D ids) (broadcastInDim S ![] hb (constant S_ .f32 0x00000000#32)))
    (Host.divf (broadcastInDim S ![] hb (constant S_ .f32 0x3F800000#32)) (degree S hb D ids))
    (broadcastInDim S ![] hb (id (constant S_ .f32 0x00000000#32)))

/-- The aggregation between the projection and the activation, as ONE function of the projected features `x` and the
    two rows of the incidence list: features gathered at the node ids and summed per hyperedge, scaled by the reciprocal
    hyperedge degree, gathered back at the hyperedge ids and summed per node, scaled by the reciprocal node degree. -/
def aggregate (x : FVec F S50000x256 .f32) (nodes edges : (⟨S800000, .i32⟩ : BufTy).Contents (Elt F)) : FVec F S50000x256 .f32 :=
  mulf
      (Host.scatterAdd scatter_S50000x256_S800000x1_S800000x256_1_0_0_1
        (broadcastInDim S50000x256 ![] bcast_S_S50000x256 (constant S_ .f32 0x00000000#32))
        (broadcastInDim S800000x1 ![0] bcast_S800000_S800000x1_0 nodes)
        (Host.gather gather_S10000x256_S800000x1_S800000x256_1_0_n_n_0_1_1256
          (mulf
            (Host.scatterAdd scatter_S10000x256_S800000x1_S800000x256_1_0_0_1
              (broadcastInDim S10000x256 ![] bcast_S_S10000x256 (constant S_ .f32 0x00000000#32))
              (broadcastInDim S800000x1 ![0] bcast_S800000_S800000x1_0 edges)
              (Host.gather gather_S50000x256_S800000x1_S800000x256_1_0_n_n_0_1_1256 x
                (broadcastInDim S800000x1 ![0] bcast_S800000_S800000x1_0 (wrap 50000#32 nodes))))
            (broadcastInDim S10000x256 ![0, 1] bcast_S10000x1_S10000x256_0_1
              (broadcastInDim S10000x1 ![0] bcast_S10000_S10000x1_0 (invDegree S10000 bcast_S_S10000 scatter_S10000_S800000x1_S800000_n_0_0_1 edges))))
          (broadcastInDim S800000x1 ![0] bcast_S800000_S800000x1_0 (wrap 10000#32 edges))))
      (broadcastInDim S50000x256 ![0, 1] bcast_S50000x1_S50000x256_0_1
        (broadcastInDim S50000x1 ![0] bcast_S50000_S50000x1_0 (invDegree S50000 bcast_S_S50000 scatter_S50000_S800000x1_S800000_n_0_0_1 nodes)))

/-- Row `r` of the [2, 800000] incidence list as a vector. -/
abbrev row0 (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000
abbrev row1 (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

variable (m : (ℓ : Loc nD τ sig) → Buf (Elt F) ℓ) (ρ : Dev nD → PrngReg)

/-- Region 1's first input array: the aggregation of region 0's output over the two index rows. -/
theorem W7_v47 (c : Dev nD) : W7 (F := F) m ρ c (Proc.devRef .tc main_v47)
    = aggregate (W2 m ρ c (Proc.devRef .tc main_v4)) (W2 m ρ c (Proc.devRef .tc main_v1)) (W2 m ρ c (Proc.devRef .tc main_v3)) := by
  show StableHlo.after hostOps1_4 (StableHlo.after hostOps1_3 (StableHlo.after hostOps1_2 (StableHlo.after hostOps1_1 (StableHlo.after hostOps1 (W2 m ρ c))))) (Proc.devRef .tc main_v47) = _
  after_results_simp
  rfl

/-- Region 1's second input array: the bias vector as a [1, 256] row. -/
theorem W7_v48 (c : Dev nD) : W7 (F := F) m ρ c (Proc.devRef .tc main_v48)
    = shapeCast S1x256 (W2 m ρ c (Proc.devRef .tc main_arg2)) shapeCasts_S256_S1x256 := by
  show StableHlo.after hostOps1_4 (StableHlo.after hostOps1_3 (StableHlo.after hostOps1_2 (StableHlo.after hostOps1_1 (StableHlo.after hostOps1 (W2 m ρ c))))) (Proc.devRef .tc main_v48) = _
  after_results_simp
  rfl

end Cert.KernelIdeal.Mid

end
-- ==== Proof.KChain.lean ====
/-
  The kernel program's result array, walked back through its ten segments to the argument arrays.

  The last boundary's contents at the result buffer are region 2's output (the dense head); its inputs are region 1's
  output (the Gram matrix), the head's weight as launched and its bias reshaped to a row; region 1's inputs are the
  aggregation (the host stretch between the first two regions) of region 0's output over the incidence list's two rows,
  and the convolution's bias reshaped to a row; region 0's inputs are the embedding table and the convolution's weight as
  launched. Each region's output is taken from a hypothesis stated for ANY entry contents (`h0`, `h1`, `h2`), so this
  module is only the bookkeeping of which buffer holds what at which boundary.
-/
import proofs.«159324_j40638980555154_1_alg».proof.Proof.Gen.KernelIdeal.Frame
import proofs.«159324_j40638980555154_1_alg».proof.Proof.KMid
import proofs.«159324_j40638980555154_1_alg».proof.Proof.Spec
import Idealize.ShloMosaic.Lib.StableHlo.Run
import Idealize.ShloMosaic.Lib.Pipeline.Value
import Idealize.ShloMosaic.Lib.ValueIdx

noncomputable section

namespace Cert.KernelIdeal.Chain

open Idealize.ShloMosaic Idealize.ShloMosaic.TcCoe Idealize.SL.Sem Idealize.ShloMosaic.ValueIdx
open Cert.KernelIdeal Cert.KernelIdeal.Gen

section AnyInstance

variable {F : FTy → Type} [FloatOps F]
variable (m : (ℓ : Loc nD τ sig) → Buf (Elt F) ℓ) (ρ : Dev nD → PrngReg)

/-! ## Region 0's inputs are the launch contents -/

theorem V1_arg0 (c : Dev nD) : V1 (F := F) m ρ c main_arg0 = m ((c : Thread nD τ).loc main_arg0) := by
  show StableHlo.after hostOps0 (W0 m ρ c) (Proc.devRef .tc main_arg0) = _
  after_results_simp <;> rfl

theorem V1_arg1 (c : Dev nD) : V1 (F := F) m ρ c main_arg1 = m ((c : Thread nD τ).loc main_arg1) := by
  show StableHlo.after hostOps0 (W0 m ρ c) (Proc.devRef .tc main_arg1) = _
  after_results_simp <;> rfl

/-! ## At region 0's exit -/

/-- Region 0's output array. -/
theorem W2_v4 (c : Dev nD) : W2 (F := F) m ρ c (Proc.devRef .tc main_v4) = (dat0 (V1 m ρ) c).arrAt 2 cfg0.N :=
  W2_arr m ρ c 2

/-- The node ids: row 0 of the incidence list, computed before region 0 and untouched by it. -/
theorem W2_v1 (c : Dev nD) : W2 (F := F) m ρ c (Proc.devRef .tc main_v1) = Mid.row0 (m ((c : Thread nD τ).loc main_arg5)) := by
  rw [W2_of_ne m ρ c main_v1 (by decide)]
  show StableHlo.after hostOps0 (W0 m ρ c) (Proc.devRef .tc main_v1) = _
  after_results_simp <;> rfl

/-- The hyperedge ids: row 1 of the incidence list. -/
theorem W2_v3 (c : Dev nD) : W2 (F := F) m ρ c (Proc.devRef .tc main_v3) = Mid.row1 (m ((c : Thread nD τ).loc main_arg5)) := by
  rw [W2_of_ne m ρ c main_v3 (by decide)]
  show StableHlo.after hostOps0 (W0 m ρ c) (Proc.devRef .tc main_v3) = _
  after_results_simp <;> rfl

theorem W2_arg2 (c : Dev nD) : W2 (F := F) m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results_simp <;> rfl

/-! ## Region 1's inputs and output -/

theorem V7_v47 (c : Dev nD) : V7 (F := F) m ρ c main_v47
    = Mid.aggregate ((dat0 (V1 m ρ) c).arrAt 2 cfg0.N) (Mid.row0 (m ((c : Thread nD τ).loc main_arg5))) (Mid.row1 (m ((c : Thread nD τ).loc main_arg5))) := by
  show W7 m ρ c (Proc.devRef .tc main_v47) = _
  rw [Mid.W7_v47, W2_v4, W2_v1, W2_v3]

theorem V7_v48 (c : Dev nD) : V7 (F := F) m ρ c main_v48 = shapeCast S1x256 (m ((c : Thread nD τ).loc main_arg2)) shapeCasts_S256_S1x256 := by
  show W7 m ρ c (Proc.devRef .tc main_v48) = _
  rw [Mid.W7_v48, W2_arg2]

theorem W8_v49 (c : Dev nD) : W8 (F := F) m ρ c (Proc.devRef .tc main_v49) = (dat1 (V7 m ρ) c).arrAt 2 cfg1.N :=
  W8_arr m ρ c 2

/-! ## Region 2's inputs and output -/

theorem V9_v49 (c : Dev nD) : V9 (F := F) m ρ c main_v49 = (dat1 (V7 m ρ) c).arrAt 2 cfg1.N := by
  show StableHlo.after hostOps2 (W8 m ρ c) (Proc.devRef .tc main_v49) = _
  (after_results_simp)
  exact W8_v49 m ρ c

/-- The head's weight: launched, written by no host operation and by no region. -/
theorem V9_arg3 (c : Dev nD) : V9 (F := F) m ρ c main_arg3 = m ((c : Thread nD τ).loc main_arg3) :=
  ((W10_arr m ρ c 1).trans (((dat2 (V9 m ρ) c).arrAt_in 1 rfl _).trans (A_eq2 (V9 m ρ) c 1))).symm.trans (W10_main_arg3 m ρ c)

theorem W8_arg4 (c : Dev nD) : W8 (F := F) m ρ c (Proc.devRef .tc main_arg4) = m ((c : Thread nD τ).loc main_arg4) := by
  rw [W8_of_ne m ρ c main_arg4 (by decide)]
  show StableHlo.after hostOps1_4 (StableHlo.after hostOps1_3 (StableHlo.after hostOps1_2 (StableHlo.after hostOps1_1 (StableHlo.after hostOps1 (W2 m ρ c))))) (Proc.devRef .tc main_arg4) = _
  (after_results_simp)
  rw [W2_of_ne m ρ c main_arg4 (by decide)]
  show StableHlo.after hostOps0 (W0 m ρ c) (Proc.devRef .tc main_arg4) = _
  after_results_simp <;> rfl

theorem V9_v50 (c : Dev nD) : V9 (F := F) m ρ c main_v50 = shapeCast S1x256 (m ((c : Thread nD τ).loc main_arg4)) shapeCasts_S256_S1x256 := by
  show StableHlo.after hostOps2 (W8 m ρ c) (Proc.devRef .tc main_v50) = _
  (after_results_simp)
  rw [W8_arg4]
  rfl

theorem W10_v51 (c : Dev nD) : W10 (F := F) m ρ c (Proc.devRef .tc main_v51) = (dat2 (V9 m ρ) c).arrAt 3 cfg2.N :=
  W10_arr m ρ c 3

/-- A vector reshaped to a one-row matrix, read in that row: the vector's entry. -/
theorem row_apply {α : Type} (v : S256.Idx → α) (j : Fin 256) :
    shapeCast S1x256 v shapeCasts_S256_S1x256 (ix2 (0 : Fin 1) j) = v (ix1 j) := by
  refine shapeCast_apply v _ (ix2 (0 : Fin 1) j) (ix1 j) ?_
  rw [Shape.rowMajor_val_one, Shape.rowMajor_val_two]
  simp

end AnyInstance

/-! ## The value, at the extended reals -/

variable (m : (ℓ : Loc nD τ sig) → Buf (Elt Ideal) ℓ) (ρ : Dev nD → PrngReg)

/-- The projection of the launched embedding table by the launched convolution weight. -/
abbrev projOf (c : Dev nD) : Spec.I2 50000 256 → EReal :=
  Spec.proj (m ((c : Thread nD τ).loc main_arg0) : Spec.I2 50000 256 → EReal) (m ((c : Thread nD τ).loc main_arg1) : Spec.I2 256 256 → EReal)

/-- Its aggregation over the launched incidence list. -/
abbrev aggOf (c : Dev nD) : Spec.I2 50000 256 → EReal :=
  Mid.aggregate (F := Ideal) (projOf m c) (Mid.row0 (m ((c : Thread nD τ).loc main_arg5))) (Mid.row1 (m ((c : Thread nD τ).loc main_arg5)))

/-- A launched vector as a function of its one coordinate. -/
abbrev vecOf (v : Spec.I1 256 → EReal) : Fin 256 → EReal := fun j => v (ix1 j)

/-- The Gram matrix of the activations. -/
abbrev gramOf (c : Dev nD) : Spec.I2 256 256 → EReal :=
  Spec.gram (Spec.act (aggOf m c) (vecOf (m ((c : Thread nD τ).loc main_arg2))))

/-- Region 0 leaves the projection in its output array. -/
theorem region0_out (h0 : ∀ (V : (c : Dev nD) → (b : Ref sig .tc) → Buf (Elt Ideal) ((c : Thread nD τ).loc b)) (c : Dev nD),
      ((dat0 (F := Ideal) V c).arrAt 2 cfg0.N : Spec.I2 50000 256 → EReal)
        = Spec.proj (V c (Pipeline.arrRef spec0 0) : Spec.I2 50000 256 → EReal) (V c (Pipeline.arrRef spec0 1) : Spec.I2 256 256 → EReal)) (c : Dev nD) :
    ((dat0 (F := Ideal) (V1 m ρ) c).arrAt 2 cfg0.N : Spec.I2 50000 256 → EReal) = projOf m c :=
  (h0 (V1 m ρ) c).trans (congrArg₂ (fun (x : Spec.I2 50000 256 → EReal) (w : Spec.I2 256 256 → EReal) => Spec.proj x w) (V1_arg0 m ρ c) (V1_arg1 m ρ c))

/-- Region 1 finds the aggregation in its first input array. -/
theorem region1_in0 (h0 : ∀ (V : (c : Dev nD) → (b : Ref sig .tc) → Buf (Elt Ideal) ((c : Thread nD τ).loc b)) (c : Dev nD),
      ((dat0 (F := Ideal) V c).arrAt 2 cfg0.N : Spec.I2 50000 256 → EReal)
        = Spec.proj (V c (Pipeline.arrRef spec0 0) : Spec.I2 50000 256 → EReal) (V c (Pipeline.arrRef spec0 1) : Spec.I2 256 256 → EReal)) (c : Dev nD) :
    (V7 m ρ c (Pipeline.arrRef spec1 0) : Spec.I2 50000 256 → EReal) = aggOf m c :=
  (V7_v47 m ρ c).trans (congrArg (fun x : Spec.I2 50000 256 → EReal =>
    (Mid.aggregate (F := Ideal) x (Mid.row0 (m ((c : Thread nD τ).loc main_arg5))) (Mid.row1 (m ((c : Thread nD τ).loc main_arg5))) : Spec.I2 50000 256 → EReal))
    (region0_out m ρ h0 c))

/-- Region 1 finds the convolution's bias, as a row, in its second input array. -/
theorem region1_in1 (c : Dev nD) :
    (fun j : Fin 256 => (V7 m ρ c (Pipeline.arrRef spec1 1) : Spec.I2 1 256 → EReal) (ix2 0 j)) = vecOf (m ((c : Thread nD τ).loc main_arg2)) :=
  funext fun j => (congrFun (V7_v48 m ρ c) (ix2 (0 : Fin 1) j)).trans (row_apply _ j)

/-- Region 1 leaves the Gram matrix of the activations in its output array. -/
theorem region1_out (h0 : ∀ (V : (c : Dev nD) → (b : Ref sig .tc) → Buf (Elt Ideal) ((c : Thread nD τ).loc b)) (c : Dev nD),
      ((dat0 (F := Ideal) V c).arrAt 2 cfg0.N : Spec.I2 50000 256 → EReal)
        = Spec.proj (V c (Pipeline.arrRef spec0 0) : Spec.I2 50000 256 → EReal) (V c (Pipeline.arrRef spec0 1) : Spec.I2 256 256 → EReal))
    (h1 : ∀ (V : (c : Dev nD) → (b : Ref sig .tc) → Buf (Elt Ideal) ((c : Thread nD τ).loc b)) (c : Dev nD),
      ((dat1 (F := Ideal) V c).arrAt 2 cfg1.N : Spec.I2 256 256 → EReal)
        = Spec.gram (Spec.act (V c (Pipeline.arrRef spec1 0) : Spec.I2 50000 256 → EReal)
            (fun j : Fin 256 => (V c (Pipeline.arrRef spec1 1) : Spec.I2 1 256 → EReal) (ix2 0 j)))) (c : Dev nD) :
    ((dat1 (F := Ideal) (V7 m ρ) c).arrAt 2 cfg1.N : Spec.I2 256 256 → EReal) = gramOf m c :=
  (h1 (V7 m ρ) c).trans (congrArg₂ (fun (n : Spec.I2 50000 256 → EReal) (b : Fin 256 → EReal) => Spec.gram (Spec.act n b))
    (region1_in0 m ρ h0 c) (region1_in1 m ρ c))

/-- Region 2 finds the Gram matrix in its first input array. -/
theorem region2_in0 (h0 : ∀ (V : (c : Dev nD) → (b : Ref sig .tc) → Buf (Elt Ideal) ((c : Thread nD τ).loc b)) (c : Dev nD),
      ((dat0 (F := Ideal) V c).arrAt 2 cfg0.N : Spec.I2 50000 256 → EReal)
        = Spec.proj (V c (Pipeline.arrRef spec0 0) : Spec.I2 50000 256 → EReal) (V c (Pipeline.arrRef spec0 1) : Spec.I2 256 256 → EReal))
    (h1 : ∀ (V : (c : Dev nD) → (b : Ref sig .tc) → Buf (Elt Ideal) ((c : Thread nD τ).loc b)) (c : Dev nD),
      ((dat1 (F := Ideal) V c).arrAt 2 cfg1.N : Spec.I2 256 256 → EReal)
        = Spec.gram (Spec.act (V c (Pipeline.arrRef spec1 0) : Spec.I2 50000 256 → EReal)
            (fun j : Fin 256 => (V c (Pipeline.arrRef spec1 1) : Spec.I2 1 256 → EReal) (ix2 0 j)))) (c : Dev nD) :
    (V9 m ρ c (Pipeline.arrRef spec2 0) : Spec.I2 256 256 → EReal) = gramOf m c :=
  (V9_v49 m ρ c).trans (region1_out m ρ h0 h1 c)

/-- Region 2 finds the head's bias, as a row, in its third input array. -/
theorem region2_in2 (c : Dev nD) :
    (fun j : Fin 256 => (V9 m ρ c (Pipeline.arrRef spec2 2) : Spec.I2 1 256 → EReal) (ix2 0 j)) = vecOf (m ((c : Thread nD τ).loc main_arg4)) :=
  funext fun j => (congrFun (V9_v50 m ρ c) (ix2 (0 : Fin 1) j)).trans (row_apply _ j)

/-- The result array holds the head of the Gram matrix. -/
theorem value_short (h0 : ∀ (V : (c : Dev nD) → (b : Ref sig .tc) → Buf (Elt Ideal) ((c : Thread nD τ).loc b)) (c : Dev nD),
      ((dat0 (F := Ideal) V c).arrAt 2 cfg0.N : Spec.I2 50000 256 → EReal)
        = Spec.proj (V c (Pipeline.arrRef spec0 0) : Spec.I2 50000 256 → EReal) (V c (Pipeline.arrRef spec0 1) : Spec.I2 256 256 → EReal))
    (h1 : ∀ (V : (c : Dev nD) → (b : Ref sig .tc) → Buf (Elt Ideal) ((c : Thread nD τ).loc b)) (c : Dev nD),
      ((dat1 (F := Ideal) V c).arrAt 2 cfg1.N : Spec.I2 256 256 → EReal)
        = Spec.gram (Spec.act (V c (Pipeline.arrRef spec1 0) : Spec.I2 50000 256 → EReal)
            (fun j : Fin 256 => (V c (Pipeline.arrRef spec1 1) : Spec.I2 1 256 → EReal) (ix2 0 j))))
    (h2 : ∀ (V : (c : Dev nD) → (b : Ref sig .tc) → Buf (Elt Ideal) ((c : Thread nD τ).loc b)) (c : Dev nD),
      ((dat2 (F := Ideal) V c).arrAt 3 cfg2.N : Spec.I2 256 256 → EReal)
        = Spec.head (V c (Pipeline.arrRef spec2 0) : Spec.I2 256 256 → EReal) (V c (Pipeline.arrRef spec2 1) : Spec.I2 256 256 → EReal)
            (fun j : Fin 256 => (V c (Pipeline.arrRef spec2 2) : Spec.I2 1 256 → EReal) (ix2 0 j))) (c : Dev nD) :
    (W10 (F := Ideal) m ρ c (Proc.devRef .tc main_v51) : Spec.I2 256 256 → EReal)
      = Spec.head (gramOf m c) (m ((c : Thread nD τ).loc main_arg3) : Spec.I2 256 256 → EReal) (vecOf (m ((c : Thread nD τ).loc main_arg4))) :=
  (W10_v51 m ρ c).trans ((h2 (V9 m ρ) c).trans
    (congr (congrArg₂ (fun (g w : Spec.I2 256 256 → EReal) (b : Fin 256 → EReal) => Spec.head g w b)
      (region2_in0 m ρ h0 h1 c) (V9_arg3 m ρ c)) (region2_in2 m ρ c)))

/-- The kernel program's result array holds the specification's composition of the argument arrays, given each region's
    output as the specification's function of that region's entry contents. -/
theorem value (h0 : ∀ (V : (c : Dev nD) → (b : Ref sig .tc) → Buf (Elt Ideal) ((c : Thread nD τ).loc b)) (c : Dev nD),
      ((dat0 (F := Ideal) V c).arrAt 2 cfg0.N : Spec.I2 50000 256 → EReal)
        = Spec.proj (V c (Pipeline.arrRef spec0 0) : Spec.I2 50000 256 → EReal) (V c (Pipeline.arrRef spec0 1) : Spec.I2 256 256 → EReal))
    (h1 : ∀ (V : (c : Dev nD) → (b : Ref sig .tc) → Buf (Elt Ideal) ((c : Thread nD τ).loc b)) (c : Dev nD),
      ((dat1 (F := Ideal) V c).arrAt 2 cfg1.N : Spec.I2 256 256 → EReal)
        = Spec.gram (Spec.act (V c (Pipeline.arrRef spec1 0) : Spec.I2 50000 256 → EReal)
            (fun j : Fin 256 => (V c (Pipeline.arrRef spec1 1) : Spec.I2 1 256 → EReal) (ix2 0 j))))
    (h2 : ∀ (V : (c : Dev nD) → (b : Ref sig .tc) → Buf (Elt Ideal) ((c : Thread nD τ).loc b)) (c : Dev nD),
      ((dat2 (F := Ideal) V c).arrAt 3 cfg2.N : Spec.I2 256 256 → EReal)
        = Spec.head (V c (Pipeline.arrRef spec2 0) : Spec.I2 256 256 → EReal) (V c (Pipeline.arrRef spec2 1) : Spec.I2 256 256 → EReal)
            (fun j : Fin 256 => (V c (Pipeline.arrRef spec2 2) : Spec.I2 1 256 → EReal) (ix2 0 j))) (c : Dev nD) :
    (W10 (F := Ideal) m ρ c (Proc.devRef .tc main_v51) : Spec.I2 256 256 → EReal)
      = Spec.head
          (Spec.gram
            (Spec.act
              (Mid.aggregate (F := Ideal)
                (Spec.proj (m ((c : Thread nD τ).loc main_arg0) : Spec.I2 50000 256 → EReal) (m ((c : Thread nD τ).loc main_arg1) : Spec.I2 256 256 → EReal))
                (Mid.row0 (m ((c : Thread nD τ).loc main_arg5))) (Mid.row1 (m ((c : Thread nD τ).loc main_arg5))) : Spec.I2 50000 256 → EReal)
              (fun j : Fin 256 => (m ((c : Thread nD τ).loc main_arg2) : Spec.I1 256 → EReal) (ix1 j))))
          (m ((c : Thread nD τ).loc main_arg3) : Spec.I2 256 256 → EReal)
          (fun j : Fin 256 => (m ((c : Thread nD τ).loc main_arg4) : Spec.I1 256 → EReal) (ix1 j)) :=
  value_short m ρ h0 h1 h2 c

end Cert.KernelIdeal.Chain

end
-- ==== Proof.RefTerm.lean ====
/-
  The reference program's result as ONE pure term of its six argument arrays.

  The reference is a straight line of host operations: the projection `emb · conv_wᵀ` as a `dot_general` against the
  transposed weight; the aggregation over the incidence list (`aggregate`: the same chain of operations the kernel
  program runs between its first two regions); the bias added along the rows; the leaky rectifier; the Gram matrix as a
  `dot_general` of the transposed activations against themselves; the dense head `g · lin_wᵀ + lin_b` and the rectifier.
  `result` composes them in that order.
-/
import proofs.«159324_j40638980555154_1_alg».proof.Proof.Gen.ReferenceIdeal
import Idealize.ShloMosaic.Lib.StableHlo.Run

noncomputable section

namespace Cert.ReferenceIdeal.RefValue

open Idealize.ShloMosaic Idealize.ShloMosaic.TcCoe Idealize.SL.Sem
open Cert.ReferenceIdeal Cert.ReferenceIdeal.Gen

variable {F : FTy → Type} [FloatOps F]

/-- A negative index wrapped once by the axis extent `n` (jnp's indexing convention): `i + n` where `i < 0`, else `i`. -/
abbrev wrap (n : BitVec 32) (i : (⟨S800000, .i32⟩ : BufTy).Contents (Elt F)) : (⟨S800000, .i32⟩ : BufTy).Contents (Elt F) :=
  select (cmpi .slt i (broadcastInDim S800000 ![] bcast_S_S800000 (constantI S_ 32 0#32)))
    (addi i (broadcastInDim S800000 ![] bcast_S_S800000 (constantI S_ 32 n))) i

/-- The degree of every segment (a scatter-add of ones over the incidence list). -/
abbrev degree (S : Shape) (hb : S_.BroadcastsInDim S ![]) (D : ScatterDims S S800000x1 S800000)
    (ids : (⟨S800000, .i32⟩ : BufTy).Contents (Elt F)) : FVec F S .f32 :=
  Host.scatterAdd D (broadcastInDim S ![] hb (constant S_ .f32 0x00000000#32))
    (broadcastInDim S800000x1 ![0] bcast_S800000_S800000x1_0 ids)
    (broadcastInDim S800000 ![] bcast_S_S800000 (constant S_ .f32 0x3F800000#32))

/-- The reciprocal degree, zero where the degree is not positive. -/
abbrev invDegree (S : Shape) (hb : S_.BroadcastsInDim S ![]) (D : ScatterDims S S800000x1 S800000)
    (ids : (⟨S800000, .i32⟩ : BufTy).Contents (Elt F)) : FVec F S .f32 :=
  select (cmpf .ogt (degree S hb D ids) (broadcastInDim S ![] hb (constant S_ .f32 0x00000000#32)))
    (Host.divf (broadcastInDim S ![] hb (constant S_ .f32 0x3F800000#32)) (degree S hb D ids))
    (broadcastInDim S ![] hb (id (constant S_ .f32 0x00000000#32)))

/-- The aggregation between the projection and the activation, as ONE function of the projected features `x` and the
    two rows of the incidence list: features gathered at the node ids and summed per hyperedge, scaled by the reciprocal
    hyperedge degree, gathered back at the hyperedge ids and summed per node, scaled by the reciprocal node degree. -/
def aggregate (x : FVec F S50000x256 .f32) (nodes edges : (⟨S800000, .i32⟩ : BufTy).Contents (Elt F)) : FVec F S50000x256 .f32 :=
  mulf
      (Host.scatterAdd scatter_S50000x256_S800000x1_S800000x256_1_0_0_1
        (broadcastInDim S50000x256 ![] bcast_S_S50000x256 (constant S_ .f32 0x00000000#32))
        (broadcastInDim S800000x1 ![0] bcast_S800000_S800000x1_0 nodes)
        (Host.gather gather_S10000x256_S800000x1_S800000x256_1_0_n_n_0_1_1256
          (mulf
            (Host.scatterAdd scatter_S10000x256_S800000x1_S800000x256_1_0_0_1
              (broadcastInDim S10000x256 ![] bcast_S_S10000x256 (constant S_ .f32 0x00000000#32))
              (broadcastInDim S800000x1 ![0] bcast_S800000_S800000x1_0 edges)
              (Host.gather gather_S50000x256_S800000x1_S800000x256_1_0_n_n_0_1_1256 x
                (broadcastInDim S800000x1 ![0] bcast_S800000_S800000x1_0 (wrap 50000#32 nodes))))
            (broadcastInDim S10000x256 ![0, 1] bcast_S10000x1_S10000x256_0_1
              (broadcastInDim S10000x1 ![0] bcast_S10000_S10000x1_0 (invDegree S10000 bcast_S_S10000 scatter_S10000_S800000x1_S800000_n_0_0_1 edges))))
          (broadcastInDim S800000x1 ![0] bcast_S800000_S800000x1_0 (wrap 10000#32 edges))))
      (broadcastInDim S50000x256 ![0, 1] bcast_S50000x1_S50000x256_0_1
        (broadcastInDim S50000x1 ![0] bcast_S50000_S50000x1_0 (invDegree S50000 bcast_S_S50000 scatter_S50000_S800000x1_S800000_n_0_0_1 nodes)))

/-- Row `r` of the [2, 800000] incidence list as a vector. -/
abbrev row0 (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000
abbrev row1 (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The leaky rectifier as jax outlines it: `a` where `a ≥ 0`, else the slope word times `a`. -/
abbrev lrelu (S : Shape) (hb : S_.BroadcastsInDim S ![]) (a : FVec F S .f32) : FVec F S .f32 :=
  select (cmpf .oge a (broadcastInDim S ![] hb (constant S_ .f32 0x00000000#32))) a
    (mulf (broadcastInDim S ![] hb (id (constant S_ .f32 0x3C23D70A#32))) a)

/-- The projection: `emb · conv_wᵀ`. -/
abbrev projected (a0 : FVec F S50000x256 .f32) (a1 : FVec F S256x256 .f32) : FVec F S50000x256 .f32 :=
  Host.dotGeneral dot_S50000x256_S256x256_S50000x256_1_0_0_1_n_n none a0 (transpose S256x256 [1, 0] a1 transposes_S256x256_S256x256_1_0)

/-- The activations: the rectifier of the aggregated features plus the bias along the rows. -/
abbrev activated (n : FVec F S50000x256 .f32) (a2 : FVec F S256 .f32) : FVec F S50000x256 .f32 :=
  lrelu S50000x256 bcast_S_S50000x256
    (addf n (broadcastInDim S50000x256 ![0, 1] bcast_S1x256_S50000x256_0_1 (broadcastInDim S1x256 ![1] bcast_S256_S1x256_1 a2)))

/-- The Gram matrix `yᵀ · y`. -/
abbrev gramOf (y : FVec F S50000x256 .f32) : FVec F S256x256 .f32 :=
  Host.dotGeneral dot_S256x50000_S50000x256_S256x256_1_0_0_1_n_n none (transpose S256x50000 [1, 0] y transposes_S50000x256_S256x50000_1_0) y

/-- The dense head: the rectifier of `g · lin_wᵀ + lin_b`. -/
abbrev headOf (g : FVec F S256x256 .f32) (a3 : FVec F S256x256 .f32) (a4 : FVec F S256 .f32) : FVec F S256x256 .f32 :=
  lrelu S256x256 bcast_S_S256x256
    (addf (Host.dotGeneral dot_S256x256_S256x256_S256x256_1_0_0_1_n_n none g (transpose S256x256 [1, 0] a3 transposes_S256x256_S256x256_1_0))
      (broadcastInDim S256x256 ![0, 1] bcast_S1x256_S256x256_0_1 (broadcastInDim S1x256 ![1] bcast_S256_S1x256_1 a4)))

/-- The reference's result as one term of its argument arrays. -/
def result (a0 : FVec F S50000x256 .f32) (a1 : FVec F S256x256 .f32) (a2 : FVec F S256 .f32) (a3 : FVec F S256x256 .f32)
    (a4 : FVec F S256 .f32) (a5 : (⟨S2x800000, .i32⟩ : BufTy).Contents (Elt F)) : FVec F S256x256 .f32 :=
  headOf (gramOf (activated (aggregate (projected a0 a1) (row0 a5) (row1 a5)) a2)) a3 a4

end Cert.ReferenceIdeal.RefValue

end
-- ==== Proof.RefRun.lean ====
/-
  The reference program's run, read back: @main as the list of its host operations (the outlined functions' bodies
  written out at their calls, over each call's own buffers), and the statement that every weakly fair execution
  terminates with the result array at `RefValue.result` of the argument arrays and the arguments unchanged.
-/
import proofs.«159324_j40638980555154_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 94 operations, in order: its own 80, and at each of the four calls the callee's operations over that call's buffers (the two guarded reciprocals' selects: three each; the two rectifiers: seven each, the last the nested select). -/
abbrev ops : List (HloOp τ sig (Elt F)) :=
  [ unary main_arg5 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg5 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg1 main_v4 ((transpose S256x256 [1, 0] · transposes_S256x256_S256x256_1_0) : (⟨S256x256, .f32⟩ : BufTy).Contents (Elt F) → (⟨S256x256, .f32⟩ : BufTy).Contents (Elt F)),
    binary main_arg0 main_v4 main_v5 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_cst (constant S_ .f32 0x3F800000#32),
    unary main_cst main_v6 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v7 (broadcastInDim S50000 ![] bcast_S_S50000 : (⟨S_, .f32⟩ : BufTy).Contents (Elt F) → (⟨S50000, .f32⟩ : BufTy).Contents (Elt F)),
    unary main_v1 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v10 (broadcastInDim S50000 ![] bcast_S_S50000 : (⟨S_, .f32⟩ : BufTy).Contents (Elt F) → (⟨S50000, .f32⟩ : BufTy).Contents (Elt F)),
    binary main_v9 main_v10 main_v11 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v12 (broadcastInDim S50000 ![] bcast_S_S50000 : (⟨S_, .f32⟩ : BufTy).Contents (Elt F) → (⟨S50000, .f32⟩ : BufTy).Contents (Elt F)),
    binary main_v12 main_v9 main_v13 (Host.divf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    TRef.unary (.of main_cst_3 : TRef sig ⟨S_, .f32⟩) main_call0.v0 id,
    TRef.unary main_call0.v0 main_call0.v1 (broadcastInDim S50000 ![] bcast_S_S50000),
    TRef.ternary (.of main_v11 : TRef sig ⟨S50000, .i1⟩) (.of main_v13 : TRef sig ⟨S50000, .f32⟩) main_call0.v1 main_call0.v2 select,
    nullary main_cst_4 (constant S_ .f32 0x00000000#32),
    unary main_cst_4 main_v15 (broadcastInDim S10000 ![] bcast_S_S10000 : (⟨S_, .f32⟩ : BufTy).Contents (Elt F) → (⟨S10000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v6 main_v17 ((fun x i u => Host.scatterAdd scatter_S10000_S800000x1_S800000_n_0_0_1 x i u) : (⟨S10000, .f32⟩ : BufTy).Contents (Elt F) → (⟨S800000x1, .i32⟩ : BufTy).Contents (Elt F) → (⟨S800000, .f32⟩ : BufTy).Contents (Elt F) → (⟨S10000, .f32⟩ : BufTy).Contents (Elt F)),
    nullary main_cst_5 (constant S_ .f32 0x00000000#32),
    unary main_cst_5 main_v18 (broadcastInDim S10000 ![] bcast_S_S10000 : (⟨S_, .f32⟩ : BufTy).Contents (Elt F) → (⟨S10000, .f32⟩ : BufTy).Contents (Elt F)),
    binary main_v17 main_v18 main_v19 (cmpf .ogt : (⟨S10000, .f32⟩ : BufTy).Contents (Elt F) → (⟨S10000, .f32⟩ : BufTy).Contents (Elt F) → (⟨S10000, .i1⟩ : BufTy).Contents (Elt F)),
    nullary main_cst_6 (constant S_ .f32 0x3F800000#32),
    unary main_cst_6 main_v20 (broadcastInDim S10000 ![] bcast_S_S10000 : (⟨S_, .f32⟩ : BufTy).Contents (Elt F) → (⟨S10000, .f32⟩ : BufTy).Contents (Elt F)),
    binary main_v20 main_v17 main_v21 (Host.divf : (⟨S10000, .f32⟩ : BufTy).Contents (Elt F) → (⟨S10000, .f32⟩ : BufTy).Contents (Elt F) → (⟨S10000, .f32⟩ : BufTy).Contents (Elt F)),
    nullary main_cst_7 (constant S_ .f32 0x00000000#32),
    TRef.unary (.of main_cst_7 : TRef sig ⟨S_, .f32⟩) main_call1.v0 id,
    TRef.unary main_call1.v0 main_call1.v1 (broadcastInDim S10000 ![] bcast_S_S10000),
    TRef.ternary (.of main_v19 : TRef sig ⟨S10000, .i1⟩) (.of main_v21 : TRef sig ⟨S10000, .f32⟩) main_call1.v1 main_call1.v2 select,
    nullary main_c (constantI S_ 32 0#32),
    unary main_c main_v23 (broadcastInDim S800000 ![] bcast_S_S800000 : (⟨S_, .i32⟩ : BufTy).Contents (Elt F) → (⟨S800000, .i32⟩ : BufTy).Contents (Elt F)),
    binary main_v1 main_v23 main_v24 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v25 (broadcastInDim S800000 ![] bcast_S_S800000 : (⟨S_, .i32⟩ : BufTy).Contents (Elt F) → (⟨S800000, .i32⟩ : BufTy).Contents (Elt F)),
    binary main_v1 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v5 main_v28 main_v29 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_9 (constant S_ .f32 0x00000000#32),
    unary main_cst_9 main_v30 (broadcastInDim S10000x256 ![] bcast_S_S10000x256 : (⟨S_, .f32⟩ : BufTy).Contents (Elt F) → (⟨S10000x256, .f32⟩ : BufTy).Contents (Elt F)),
    unary main_v3 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S10000x256_S800000x1_S800000x256_1_0_0_1 x i u) : (⟨S10000x256, .f32⟩ : BufTy).Contents (Elt F) → (⟨S800000x1, .i32⟩ : BufTy).Contents (Elt F) → (⟨S800000x256, .f32⟩ : BufTy).Contents (Elt F) → (⟨S10000x256, .f32⟩ : BufTy).Contents (Elt F)),
    unary main_v22 main_v33 (broadcastInDim S10000x1 ![0] bcast_S10000_S10000x1_0 : (⟨S10000, .f32⟩ : BufTy).Contents (Elt F) → (⟨S10000x1, .f32⟩ : BufTy).Contents (Elt F)),
    unary main_v33 main_v34 (broadcastInDim S10000x256 ![0, 1] bcast_S10000x1_S10000x256_0_1 : (⟨S10000x1, .f32⟩ : BufTy).Contents (Elt F) → (⟨S10000x256, .f32⟩ : BufTy).Contents (Elt F)),
    binary main_v32 main_v34 main_v35 (mulf : (⟨S10000x256, .f32⟩ : BufTy).Contents (Elt F) → (⟨S10000x256, .f32⟩ : BufTy).Contents (Elt F) → (⟨S10000x256, .f32⟩ : BufTy).Contents (Elt F)),
    nullary main_c_10 (constantI S_ 32 0#32),
    unary main_c_10 main_v36 (broadcastInDim S800000 ![] bcast_S_S800000 : (⟨S_, .i32⟩ : BufTy).Contents (Elt F) → (⟨S800000, .i32⟩ : BufTy).Contents (Elt F)),
    binary main_v3 main_v36 main_v37 (cmpi .slt : (⟨S800000, .i32⟩ : BufTy).Contents (Elt F) → (⟨S800000, .i32⟩ : BufTy).Contents (Elt F) → (⟨S800000, .i1⟩ : BufTy).Contents (Elt F)),
    nullary main_c_11 (constantI S_ 32 10000#32),
    unary main_c_11 main_v38 (broadcastInDim S800000 ![] bcast_S_S800000 : (⟨S_, .i32⟩ : BufTy).Contents (Elt F) → (⟨S800000, .i32⟩ : BufTy).Contents (Elt F)),
    binary main_v3 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v3 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v35 main_v41 main_v42 ((fun x i => Host.gather gather_S10000x256_S800000x1_S800000x256_1_0_n_n_0_1_1256 x i) : (⟨S10000x256, .f32⟩ : BufTy).Contents (Elt F) → (⟨S800000x1, .i32⟩ : BufTy).Contents (Elt F) → (⟨S800000x256, .f32⟩ : BufTy).Contents (Elt F)),
    nullary main_cst_12 (constant S_ .f32 0x00000000#32),
    unary main_cst_12 main_v43 (broadcastInDim S50000x256 ![] bcast_S_S50000x256 : (⟨S_, .f32⟩ : BufTy).Contents (Elt F) → (⟨S50000x256, .f32⟩ : BufTy).Contents (Elt F)),
    unary main_v1 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v14 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x256 ![0, 1] bcast_S50000x1_S50000x256_0_1 : (⟨S50000x1, .f32⟩ : BufTy).Contents (Elt F) → (⟨S50000x256, .f32⟩ : BufTy).Contents (Elt F)),
    binary main_v45 main_v47 main_v48 (mulf : (⟨S50000x256, .f32⟩ : BufTy).Contents (Elt F) → (⟨S50000x256, .f32⟩ : BufTy).Contents (Elt F) → (⟨S50000x256, .f32⟩ : BufTy).Contents (Elt F)),
    unary main_arg2 main_v49 (broadcastInDim S1x256 ![1] bcast_S256_S1x256_1 : (⟨S256, .f32⟩ : BufTy).Contents (Elt F) → (⟨S1x256, .f32⟩ : BufTy).Contents (Elt F)),
    unary main_v49 main_v50 (broadcastInDim S50000x256 ![0, 1] bcast_S1x256_S50000x256_0_1 : (⟨S1x256, .f32⟩ : BufTy).Contents (Elt F) → (⟨S50000x256, .f32⟩ : BufTy).Contents (Elt F)),
    binary main_v48 main_v50 main_v51 (addf : (⟨S50000x256, .f32⟩ : BufTy).Contents (Elt F) → (⟨S50000x256, .f32⟩ : BufTy).Contents (Elt F) → (⟨S50000x256, .f32⟩ : BufTy).Contents (Elt F)),
    nullary main_cst_13 (constant S_ .f32 0x3C23D70A#32),
    TRef.nullary main_call2.cst (constant S_ .f32 0x00000000#32),
    TRef.unary main_call2.cst main_call2.v0 (broadcastInDim S50000x256 ![] bcast_S_S50000x256),
    TRef.binary (.of main_v51 : TRef sig ⟨S50000x256, .f32⟩) main_call2.v0 main_call2.v1 (cmpf .oge),
    TRef.unary (.of main_cst_13 : TRef sig ⟨S_, .f32⟩) main_call2.v2 id,
    TRef.unary main_call2.v2 main_call2.v3 (broadcastInDim S50000x256 ![] bcast_S_S50000x256),
    TRef.binary main_call2.v3 (.of main_v51 : TRef sig ⟨S50000x256, .f32⟩) main_call2.v4 mulf,
    TRef.ternary main_call2.v1 (.of main_v51 : TRef sig ⟨S50000x256, .f32⟩) main_call2.v4 main_call2.call0.v0 select,
    unary main_v52 main_v53 ((transpose S256x50000 [1, 0] · transposes_S50000x256_S256x50000_1_0) : (⟨S50000x256, .f32⟩ : BufTy).Contents (Elt F) → (⟨S256x50000, .f32⟩ : BufTy).Contents (Elt F)),
    binary main_v53 main_v52 main_v54 ((fun l r => Host.dotGeneral dot_S256x50000_S50000x256_S256x256_1_0_0_1_n_n none l r) : (⟨S256x50000, .f32⟩ : BufTy).Contents (Elt F) → (⟨S50000x256, .f32⟩ : BufTy).Contents (Elt F) → (⟨S256x256, .f32⟩ : BufTy).Contents (Elt F)),
    unary main_arg3 main_v55 ((transpose S256x256 [1, 0] · transposes_S256x256_S256x256_1_0) : (⟨S256x256, .f32⟩ : BufTy).Contents (Elt F) → (⟨S256x256, .f32⟩ : BufTy).Contents (Elt F)),
    binary main_v54 main_v55 main_v56 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    unary main_arg4 main_v57 (broadcastInDim S1x256 ![1] bcast_S256_S1x256_1 : (⟨S256, .f32⟩ : BufTy).Contents (Elt F) → (⟨S1x256, .f32⟩ : BufTy).Contents (Elt F)),
    unary main_v57 main_v58 (broadcastInDim S256x256 ![0, 1] bcast_S1x256_S256x256_0_1 : (⟨S1x256, .f32⟩ : BufTy).Contents (Elt F) → (⟨S256x256, .f32⟩ : BufTy).Contents (Elt F)),
    binary main_v56 main_v58 main_v59 (addf : (⟨S256x256, .f32⟩ : BufTy).Contents (Elt F) → (⟨S256x256, .f32⟩ : BufTy).Contents (Elt F) → (⟨S256x256, .f32⟩ : BufTy).Contents (Elt F)),
    nullary main_cst_14 (constant S_ .f32 0x3C23D70A#32),
    TRef.nullary main_call3.cst (constant S_ .f32 0x00000000#32),
    TRef.unary main_call3.cst main_call3.v0 (broadcastInDim S256x256 ![] bcast_S_S256x256),
    TRef.binary (.of main_v59 : TRef sig ⟨S256x256, .f32⟩) main_call3.v0 main_call3.v1 (cmpf .oge),
    TRef.unary (.of main_cst_14 : TRef sig ⟨S_, .f32⟩) main_call3.v2 id,
    TRef.unary main_call3.v2 main_call3.v3 (broadcastInDim S256x256 ![] bcast_S_S256x256),
    TRef.binary main_call3.v3 (.of main_v59 : TRef sig ⟨S256x256, .f32⟩) main_call3.v4 mulf,
    TRef.ternary main_call3.v1 (.of main_v59 : TRef sig ⟨S256x256, .f32⟩) main_call3.v4 main_call3.call0.v0 select ]

-- one bind re-associated per statement: the rewrite under the chain recurses once per statement
set_option maxRecDepth 4096 in
set_option maxHeartbeats 4000000 in
/-- @main is that straight line: the two windows and the functions' definitions unfolded at their calls, the records at
    their fields; both sides are one chain of steps once sequencing is re-associated. -/
theorem main_eq (c : Dev nD) : main (F := F) c = seq ops := by
  simp only [main, main_part0, main_part1, fn_where.body, fn_where_0.body, fn_where_1.body, fn_leaky_relu.body,
    fn_where_3.body, fn_leaky_relu_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., unary_bufs_sub .., binary_bufs_sub ..,
    nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., binary_bufs_sub .., unary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩

set_option maxHeartbeats 4000000 in
set_option maxRecDepth 8192 in
/-- The fold at the result buffer: each operation's result read at its own buffer is its function of its operands'
    contents and at any other buffer what was there, so the fold at `%60`'s buffer is the operations' composition over
    the launch contents of the arguments — `RefValue.result`, whose named parts unfold to the same term. -/
theorem result_eq (m : (ℓ : Loc nD τ sig) → Buf (Elt F) ℓ) (c : Dev nD) :
    after ops (launchContents m c) (Proc.devRef .tc main_v60)
      = RefValue.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  after_results_simp
  rfl

set_option maxHeartbeats 4000000 in
/-- No operation writes `%arg0`'s buffer: the fold leaves it at its launch contents. -/
theorem arg0_eq (m : (ℓ : Loc nD τ sig) → Buf (Elt F) ℓ) (c : Dev nD) :
    after ops (launchContents m c) (Proc.devRef .tc main_arg0) = m ((c.tc : Thread nD τ).loc main_arg0) := by
  after_results_simp

set_option maxHeartbeats 4000000 in
/-- No operation writes `%arg1`'s buffer: the fold leaves it at its launch contents. -/
theorem arg1_eq (m : (ℓ : Loc nD τ sig) → Buf (Elt F) ℓ) (c : Dev nD) :
    after ops (launchContents m c) (Proc.devRef .tc main_arg1) = m ((c.tc : Thread nD τ).loc main_arg1) := by
  after_results_simp

set_option maxHeartbeats 4000000 in
/-- No operation writes `%arg2`'s buffer: the fold leaves it at its launch contents. -/
theorem arg2_eq (m : (ℓ : Loc nD τ sig) → Buf (Elt F) ℓ) (c : Dev nD) :
    after ops (launchContents m c) (Proc.devRef .tc main_arg2) = m ((c.tc : Thread nD τ).loc main_arg2) := by
  after_results_simp

set_option maxHeartbeats 4000000 in
/-- No operation writes `%arg3`'s buffer: the fold leaves it at its launch contents. -/
theorem arg3_eq (m : (ℓ : Loc nD τ sig) → Buf (Elt F) ℓ) (c : Dev nD) :
    after ops (launchContents m c) (Proc.devRef .tc main_arg3) = m ((c.tc : Thread nD τ).loc main_arg3) := by
  after_results_simp

set_option maxHeartbeats 4000000 in
/-- No operation writes `%arg4`'s buffer: the fold leaves it at its launch contents. -/
theorem arg4_eq (m : (ℓ : Loc nD τ sig) → Buf (Elt F) ℓ) (c : Dev nD) :
    after ops (launchContents m c) (Proc.devRef .tc main_arg4) = m ((c.tc : Thread nD τ).loc main_arg4) := by
  after_results_simp

set_option maxHeartbeats 4000000 in
/-- No operation writes `%arg5`'s buffer: the fold leaves it at its launch contents. -/
theorem arg5_eq (m : (ℓ : Loc nD τ sig) → Buf (Elt F) ℓ) (c : Dev nD) :
    after ops (launchContents m c) (Proc.devRef .tc main_arg5) = m ((c.tc : Thread nD τ).loc main_arg5) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
        = RefValue.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v60).trans (result_eq m c),
      (h c main_arg0).trans (arg0_eq m c), (h c main_arg1).trans (arg1_eq m c), (h c main_arg2).trans (arg2_eq m c),
      (h c main_arg3).trans (arg3_eq m c), (h c main_arg4).trans (arg4_eq m c), (h c main_arg5).trans (arg5_eq m c)⟩)
    (run_seq scopedRefs_eq scopedSems_eq defs main (fun _ => ops) main_eq (fun _ => ops_sub) m ρ)

end Cert.ReferenceIdeal.RefRun

end
-- ==== Proof.RefRead.lean ====
/-
  The reference's result term, at the extended reals, index by index: it is the specification's composition
  `head (gram (act (aggregate (proj emb conv_w) …) conv_b)) lin_w lin_b`.
-/
import proofs.«159324_j40638980555154_1_alg».proof.Proof.RefTerm
import proofs.«159324_j40638980555154_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefRead

open Cert.ReferenceIdeal Cert.ReferenceIdeal.Gen Idealize.ShloMosaic Idealize.ShloMosaic.TcCoe Idealize.SL.Sem Idealize.ShloMosaic.ValueIdx

/-! ### The projection's contraction: [50000,256] · [256,256], axis 1 against axis 0 -/

theorem lhs_proj_0 (j : S50000x256.Idx) (k : dot_S50000x256_S256x256_S50000x256_1_0_0_1_n_n.contr.Idx) :
    (dot_S50000x256_S256x256_S50000x256_1_0_0_1_n_n.lhsIdx j k 0 : ℕ) = j 0 := by
  simp [DotDims.lhsIdx, dot_S50000x256_S256x256_S50000x256_1_0_0_1_n_n]; rfl
theorem lhs_proj_1 (j : S50000x256.Idx) (k : dot_S50000x256_S256x256_S50000x256_1_0_0_1_n_n.contr.Idx) :
    (dot_S50000x256_S256x256_S50000x256_1_0_0_1_n_n.lhsIdx j k 1 : ℕ) = k ⟨0, by decide⟩ := by
  simp [DotDims.lhsIdx, dot_S50000x256_S256x256_S50000x256_1_0_0_1_n_n]; rfl
theorem rhs_proj_0 (j : S50000x256.Idx) (k : dot_S50000x256_S256x256_S50000x256_1_0_0_1_n_n.contr.Idx) :
    (dot_S50000x256_S256x256_S50000x256_1_0_0_1_n_n.rhsIdx j k 0 : ℕ) = k ⟨0, by decide⟩ := by
  simp [DotDims.rhsIdx, dot_S50000x256_S256x256_S50000x256_1_0_0_1_n_n]; rfl
theorem rhs_proj_1 (j : S50000x256.Idx) (k : dot_S50000x256_S256x256_S50000x256_1_0_0_1_n_n.contr.Idx) :
    (dot_S50000x256_S256x256_S50000x256_1_0_0_1_n_n.rhsIdx j k 1 : ℕ) = j 1 := by
  simp [DotDims.rhsIdx, dot_S50000x256_S256x256_S50000x256_1_0_0_1_n_n]; rfl

/-- The contraction read at (p, q): the sum over the one contracted coordinate of the operands' products. -/
theorem dot_proj_apply (x : FVec Ideal S50000x256 .f32) (w : FVec Ideal S256x256 .f32) (p : Fin 50000) (q : Fin 256) :
    Host.dotGeneral (F := Ideal) dot_S50000x256_S256x256_S50000x256_1_0_0_1_n_n none x w (ix2 p q)
      = ∑ k : Fin 256, x (ix2 p k) * w (ix2 k q) := by
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  congr 2
  · funext a
    apply Fin.ext
    match a with
    | ⟨0, _⟩ => exact lhs_proj_0 _ _
    | ⟨1, _⟩ => exact (lhs_proj_1 _ _).trans (contrEquiv1_symm_val _ _ _ _ k)
  · funext a
    apply Fin.ext
    match a with
    | ⟨0, _⟩ => exact (rhs_proj_0 _ _).trans (contrEquiv1_symm_val _ _ _ _ k)
    | ⟨1, _⟩ => exact rhs_proj_1 _ _

/-! ### The Gram matrix's contraction: [256,50000] · [50000,256], axis 1 against axis 0 -/

theorem lhs_gram_0 (j : S256x256.Idx) (k : dot_S256x50000_S50000x256_S256x256_1_0_0_1_n_n.contr.Idx) :
    (dot_S256x50000_S50000x256_S256x256_1_0_0_1_n_n.lhsIdx j k 0 : ℕ) = j 0 := by
  simp [DotDims.lhsIdx, dot_S256x50000_S50000x256_S256x256_1_0_0_1_n_n]; rfl
theorem lhs_gram_1 (j : S256x256.Idx) (k : dot_S256x50000_S50000x256_S256x256_1_0_0_1_n_n.contr.Idx) :
    (dot_S256x50000_S50000x256_S256x256_1_0_0_1_n_n.lhsIdx j k 1 : ℕ) = k ⟨0, by decide⟩ := by
  simp [DotDims.lhsIdx, dot_S256x50000_S50000x256_S256x256_1_0_0_1_n_n]; rfl
theorem rhs_gram_0 (j : S256x256.Idx) (k : dot_S256x50000_S50000x256_S256x256_1_0_0_1_n_n.contr.Idx) :
    (dot_S256x50000_S50000x256_S256x256_1_0_0_1_n_n.rhsIdx j k 0 : ℕ) = k ⟨0, by decide⟩ := by
  simp [DotDims.rhsIdx, dot_S256x50000_S50000x256_S256x256_1_0_0_1_n_n]; rfl
theorem rhs_gram_1 (j : S256x256.Idx) (k : dot_S256x50000_S50000x256_S256x256_1_0_0_1_n_n.contr.Idx) :
    (dot_S256x50000_S50000x256_S256x256_1_0_0_1_n_n.rhsIdx j k 1 : ℕ) = j 1 := by
  simp [DotDims.rhsIdx, dot_S256x50000_S50000x256_S256x256_1_0_0_1_n_n]; rfl

/-- The contraction read at (p, q): the sum over the one contracted coordinate of the operands' products. -/
theorem dot_gram_apply (x : FVec Ideal S256x50000 .f32) (w : FVec Ideal S50000x256 .f32) (p : Fin 256) (q : Fin 256) :
    Host.dotGeneral (F := Ideal) dot_S256x50000_S50000x256_S256x256_1_0_0_1_n_n none x w (ix2 p q)
      = ∑ k : Fin 50000, x (ix2 p k) * w (ix2 k q) := by
  simp only [Host.dotGeneral]
  rw [Ideal.dotGeneral_apply, ← Equiv.sum_comp (contrEquiv1 dot_S256x50000_S50000x256_S256x256_1_0_0_1_n_n 50000 rfl rfl).symm]
  refine Finset.sum_congr rfl fun k _ => ?_
  congr 2
  · funext a
    apply Fin.ext
    match a with
    | ⟨0, _⟩ => exact lhs_gram_0 _ _
    | ⟨1, _⟩ => exact (lhs_gram_1 _ _).trans (contrEquiv1_symm_val _ _ _ _ k)
  · funext a
    apply Fin.ext
    match a with
    | ⟨0, _⟩ => exact (rhs_gram_0 _ _).trans (contrEquiv1_symm_val _ _ _ _ k)
    | ⟨1, _⟩ => exact rhs_gram_1 _ _

/-! ### The head's contraction: [256,256] · [256,256], axis 1 against axis 0 -/

theorem lhs_head_0 (j : S256x256.Idx) (k : dot_S256x256_S256x256_S256x256_1_0_0_1_n_n.contr.Idx) :
    (dot_S256x256_S256x256_S256x256_1_0_0_1_n_n.lhsIdx j k 0 : ℕ) = j 0 := by
  simp [DotDims.lhsIdx, dot_S256x256_S256x256_S256x256_1_0_0_1_n_n]; rfl
theorem lhs_head_1 (j : S256x256.Idx) (k : dot_S256x256_S256x256_S256x256_1_0_0_1_n_n.contr.Idx) :
    (dot_S256x256_S256x256_S256x256_1_0_0_1_n_n.lhsIdx j k 1 : ℕ) = k ⟨0, by decide⟩ := by
  simp [DotDims.lhsIdx, dot_S256x256_S256x256_S256x256_1_0_0_1_n_n]; rfl
theorem rhs_head_0 (j : S256x256.Idx) (k : dot_S256x256_S256x256_S256x256_1_0_0_1_n_n.contr.Idx) :
    (dot_S256x256_S256x256_S256x256_1_0_0_1_n_n.rhsIdx j k 0 : ℕ) = k ⟨0, by decide⟩ := by
  simp [DotDims.rhsIdx, dot_S256x256_S256x256_S256x256_1_0_0_1_n_n]; rfl
theorem rhs_head_1 (j : S256x256.Idx) (k : dot_S256x256_S256x256_S256x256_1_0_0_1_n_n.contr.Idx) :
    (dot_S256x256_S256x256_S256x256_1_0_0_1_n_n.rhsIdx j k 1 : ℕ) = j 1 := by
  simp [DotDims.rhsIdx, dot_S256x256_S256x256_S256x256_1_0_0_1_n_n]; rfl

/-- The contraction read at (p, q): the sum over the one contracted coordinate of the operands' products. -/
theorem dot_head_apply (x : FVec Ideal S256x256 .f32) (w : FVec Ideal S256x256 .f32) (p : Fin 256) (q : Fin 256) :
    Host.dotGeneral (F := Ideal) dot_S256x256_S256x256_S256x256_1_0_0_1_n_n none x w (ix2 p q)
      = ∑ k : Fin 256, x (ix2 p k) * w (ix2 k q) := by
  simp only [Host.dotGeneral]
  rw [Ideal.dotGeneral_apply, ← Equiv.sum_comp (contrEquiv1 dot_S256x256_S256x256_S256x256_1_0_0_1_n_n 256 rfl rfl).symm]
  refine Finset.sum_congr rfl fun k _ => ?_
  congr 2
  · funext a
    apply Fin.ext
    match a with
    | ⟨0, _⟩ => exact lhs_head_0 _ _
    | ⟨1, _⟩ => exact (lhs_head_1 _ _).trans (contrEquiv1_symm_val _ _ _ _ k)
  · funext a
    apply Fin.ext
    match a with
    | ⟨0, _⟩ => exact (rhs_head_0 _ _).trans (contrEquiv1_symm_val _ _ _ _ k)
    | ⟨1, _⟩ => exact rhs_head_1 _ _

/-! ### The layout operations at an index -/

/-- The transpose of a [256,256] matrix at (k, j) is the matrix at (j, k). -/
theorem transpose_w_apply (w : FVec Ideal S256x256 .f32) (k j : Fin 256) :
    transpose S256x256 [1, 0] w transposes_S256x256_S256x256_1_0 (ix2 k j) = w (ix2 j k) := by
  refine transpose_apply [1, 0] w transposes_S256x256_S256x256_1_0 (ix2 k j) (ix2 j k) fun b => ?_
  match b with
  | ⟨0, _⟩ => rfl
  | ⟨1, _⟩ => rfl

/-- The transpose of a [50000,256] matrix at (i, r) is the matrix at (r, i). -/
theorem transpose_y_apply (y : FVec Ideal S50000x256 .f32) (i : Fin 256) (r : Fin 50000) :
    transpose S256x50000 [1, 0] y transposes_S50000x256_S256x50000_1_0 (ix2 i r) = y (ix2 r i) := by
  refine transpose_apply [1, 0] y transposes_S50000x256_S256x50000_1_0 (ix2 i r) (ix2 r i) fun b => ?_
  match b with
  | ⟨0, _⟩ => rfl
  | ⟨1, _⟩ => rfl

/-- A bias vector broadcast along the rows of a [50000,256] array reads the vector at the column. -/
theorem bias_act_apply (b : FVec Ideal S256 .f32) (p : Fin 50000) (q : Fin 256) :
    broadcastInDim S50000x256 ![0, 1] bcast_S1x256_S50000x256_0_1 (broadcastInDim S1x256 ![1] bcast_S256_S1x256_1 b) (ix2 p q)
      = b (ix1 q) := by
  rw [broadcastInDim_apply ![0, 1] bcast_S1x256_S50000x256_0_1 _ (ix2 p q) (ix2 (0 : Fin 1) q) (fun a => by
    match a with
    | ⟨0, _⟩ => rfl
    | ⟨1, _⟩ => rfl)]
  exact broadcastInDim_apply ![1] bcast_S256_S1x256_1 b (ix2 (0 : Fin 1) q) (ix1 q) (fun a => by
    match a with
    | ⟨0, _⟩ => rfl)

/-- A bias vector broadcast along the rows of a [256,256] array reads the vector at the column. -/
theorem bias_head_apply (b : FVec Ideal S256 .f32) (p q : Fin 256) :
    broadcastInDim S256x256 ![0, 1] bcast_S1x256_S256x256_0_1 (broadcastInDim S1x256 ![1] bcast_S256_S1x256_1 b) (ix2 p q)
      = b (ix1 q) := by
  rw [broadcastInDim_apply ![0, 1] bcast_S1x256_S256x256_0_1 _ (ix2 p q) (ix2 (0 : Fin 1) q) (fun a => by
    match a with
    | ⟨0, _⟩ => rfl
    | ⟨1, _⟩ => rfl)]
  exact broadcastInDim_apply ![1] bcast_S256_S1x256_1 b (ix2 (0 : Fin 1) q) (ix1 q) (fun a => by
    match a with
    | ⟨0, _⟩ => rfl)

/-! ### The leaky rectifier at an index -/

/-- The rectifier as the reference spells it, at any shape and any index, is the specification's on that element. -/
theorem lrelu_apply (S : Shape) (hb : S_.BroadcastsInDim S ![]) (a : FVec Ideal S .f32) (i : S.Idx) :
    RefValue.lrelu (F := Ideal) S hb a i = Spec.lrelu (a i) := by
  unfold Spec.lrelu RefValue.lrelu
  rw [select_apply, cmpf_apply, mulf_apply,
    broadcastInDim_apply ![] hb (constant (F := Ideal) S_ .f32 0x00000000#32) i ix0 (fun a => a.elim0),
    broadcastInDim_apply ![] hb (id (constant (F := Ideal) S_ .f32 0x3C23D70A#32)) i ix0 (fun a => a.elim0)]
  rfl

/-! ### The four stages at an index -/

/-- The projection at (p, q): `∑ k, emb(p,k) · conv_w(q,k)`. -/
theorem projected_apply (a0 : FVec Ideal S50000x256 .f32) (a1 : FVec Ideal S256x256 .f32) (p : Fin 50000) (q : Fin 256) :
    RefValue.projected (F := Ideal) a0 a1 (ix2 p q) = ∑ k : Fin 256, a0 (ix2 p k) * a1 (ix2 q k) := by
  unfold RefValue.projected
  rw [dot_proj_apply]
  refine Finset.sum_congr rfl fun k _ => ?_
  rw [transpose_w_apply]

/-- The activations at (p, q): the rectifier of the aggregated feature plus the bias of column q. -/
theorem activated_apply (n : FVec Ideal S50000x256 .f32) (a2 : FVec Ideal S256 .f32) (p : Fin 50000) (q : Fin 256) :
    RefValue.activated (F := Ideal) n a2 (ix2 p q) = Spec.lrelu (n (ix2 p q) + a2 (ix1 q)) := by
  unfold RefValue.activated
  rw [lrelu_apply, addf_apply, bias_act_apply]

/-- The Gram matrix at (p, q): `∑ r, y(r,p) · y(r,q)`. -/
theorem gramOf_apply (y : FVec Ideal S50000x256 .f32) (p q : Fin 256) :
    RefValue.gramOf (F := Ideal) y (ix2 p q) = ∑ r : Fin 50000, y (ix2 r p) * y (ix2 r q) := by
  unfold RefValue.gramOf
  rw [dot_gram_apply]
  refine Finset.sum_congr rfl fun r _ => ?_
  rw [transpose_y_apply]

/-- The head at (p, q): the rectifier of `∑ k, g(p,k) · lin_w(q,k)` plus the bias of column q. -/
theorem headOf_apply (g : FVec Ideal S256x256 .f32) (a3 : FVec Ideal S256x256 .f32) (a4 : FVec Ideal S256 .f32) (p q : Fin 256) :
    RefValue.headOf (F := Ideal) g a3 a4 (ix2 p q)
      = Spec.lrelu ((∑ k : Fin 256, g (ix2 p k) * a3 (ix2 q k)) + a4 (ix1 q)) := by
  unfold RefValue.headOf
  rw [lrelu_apply, addf_apply, bias_head_apply, dot_head_apply]
  congr 2
  refine Finset.sum_congr rfl fun k _ => ?_
  rw [transpose_w_apply]

/-! ### The four stages against the specification -/

/-- The projection is `emb · conv_wᵀ`. -/
theorem projected_eq (a0 : FVec Ideal S50000x256 .f32) (a1 : FVec Ideal S256x256 .f32) :
    (RefValue.projected (F := Ideal) a0 a1 : Spec.I2 50000 256 → EReal)
      = Spec.proj (a0 : Spec.I2 50000 256 → EReal) (a1 : Spec.I2 256 256 → EReal) := by
  funext i
  obtain ⟨p, q, rfl⟩ : ∃ (p : Fin 50000) (q : Fin 256), i = ix2 p q := ⟨i 0, i 1, eq_ix2 i⟩
  exact projected_apply a0 a1 p q

/-- The activations are the rectifier of the aggregated features plus the bias of the column. -/
theorem activated_eq (n : FVec Ideal S50000x256 .f32) (a2 : FVec Ideal S256 .f32) :
    (RefValue.activated (F := Ideal) n a2 : Spec.I2 50000 256 → EReal)
      = Spec.act (n : Spec.I2 50000 256 → EReal) (fun j : Fin 256 => (a2 : Spec.I1 256 → EReal) (ix1 j)) := by
  funext i
  obtain ⟨p, q, rfl⟩ : ∃ (p : Fin 50000) (q : Fin 256), i = ix2 p q := ⟨i 0, i 1, eq_ix2 i⟩
  exact activated_apply n a2 p q

/-- The Gram matrix is `yᵀ · y`. -/
theorem gramOf_eq (y : FVec Ideal S50000x256 .f32) :
    (RefValue.gramOf (F := Ideal) y : Spec.I2 256 256 → EReal) = Spec.gram (y : Spec.I2 50000 256 → EReal) := by
  funext i
  obtain ⟨p, q, rfl⟩ : ∃ (p : Fin 256) (q : Fin 256), i = ix2 p q := ⟨i 0, i 1, eq_ix2 i⟩
  exact gramOf_apply y p q

/-- The head is the rectifier of `g · lin_wᵀ` plus the bias of the column. -/
theorem headOf_eq (g : FVec Ideal S256x256 .f32) (a3 : FVec Ideal S256x256 .f32) (a4 : FVec Ideal S256 .f32) :
    (RefValue.headOf (F := Ideal) g a3 a4 : Spec.I2 256 256 → EReal)
      = Spec.head (g : Spec.I2 256 256 → EReal) (a3 : Spec.I2 256 256 → EReal)
          (fun j : Fin 256 => (a4 : Spec.I1 256 → EReal) (ix1 j)) := by
  funext i
  obtain ⟨p, q, rfl⟩ : ∃ (p : Fin 256) (q : Fin 256), i = ix2 p q := ⟨i 0, i 1, eq_ix2 i⟩
  exact headOf_apply g a3 a4 p q

/-! ### The whole term -/

theorem result_eq (a0 : FVec Ideal S50000x256 .f32) (a1 : FVec Ideal S256x256 .f32) (a2 : FVec Ideal S256 .f32)
    (a3 : FVec Ideal S256x256 .f32) (a4 : FVec Ideal S256 .f32) (a5 : (⟨S2x800000, .i32⟩ : BufTy).Contents (Elt Ideal)) :
    (RefValue.result (F := Ideal) a0 a1 a2 a3 a4 a5 : Spec.I2 256 256 → EReal)
      = Spec.head
          (Spec.gram
            (Spec.act
              (RefValue.aggregate (F := Ideal) (Spec.proj (a0 : Spec.I2 50000 256 → EReal) (a1 : Spec.I2 256 256 → EReal))
                (RefValue.row0 a5) (RefValue.row1 a5) : Spec.I2 50000 256 → EReal)
              (fun j : Fin 256 => (a2 : Spec.I1 256 → EReal) (ix1 j))))
          (a3 : Spec.I2 256 256 → EReal) (fun j : Fin 256 => (a4 : Spec.I1 256 → EReal) (ix1 j)) := by
  unfold RefValue.result
  rw [headOf_eq, gramOf_eq, activated_eq, projected_eq]

end Cert.ReferenceIdeal.RefRead

end
-- ==== Proof.AggEq.lean ====
/-
  The aggregation chain is ONE function in both programs.

  The kernel program runs, between its first two regions, exactly the host operations the reference runs between its
  projection and its bias: the same gathers and accumulating scatters with the same dimension numbers, the same
  guarded reciprocals of the same degree vectors, the same literal words. Each program prints its own copy of the shapes
  and of the dimension records; the copies are the same literals, so the two definitions agree by unfolding them, and
  so do the two readings of the incidence list's rows.
-/
import proofs.«159324_j40638980555154_1_alg».proof.Proof.KMid
import proofs.«159324_j40638980555154_1_alg».proof.Proof.RefTerm

noncomputable section

namespace Cert.Bridge

open Idealize.ShloMosaic

variable {F : FTy → Type} [FloatOps F]

theorem row0_eq (ei : (⟨Cert.KernelIdeal.S2x800000, .i32⟩ : BufTy).Contents (Elt F)) :
    Cert.KernelIdeal.Mid.row0 (F := F) ei = Cert.ReferenceIdeal.RefValue.row0 (F := F) ei := rfl

theorem row1_eq (ei : (⟨Cert.KernelIdeal.S2x800000, .i32⟩ : BufTy).Contents (Elt F)) :
    Cert.KernelIdeal.Mid.row1 (F := F) ei = Cert.ReferenceIdeal.RefValue.row1 (F := F) ei := rfl

theorem aggregate_eq (x : FVec F Cert.KernelIdeal.S50000x256 .f32)
    (nodes edges : (⟨Cert.KernelIdeal.S800000, .i32⟩ : BufTy).Contents (Elt F)) :
    Cert.KernelIdeal.Mid.aggregate (F := F) x nodes edges = Cert.ReferenceIdeal.RefValue.aggregate (F := F) x nodes edges := rfl

end Cert.Bridge

end
-- ==== Proof.lean ====
/-
  The certificate: a hypergraph convolution, a Gram matrix and a dense head, as three TensorCore kernels among host
  operations, against the same computation written with jnp.

  BOTH PROGRAMS COMPUTE, over the extended reals,
      out = lrelu ( (Yᵀ·Y) · lin_wᵀ + lin_b ),   Y = lrelu ( A(emb · conv_wᵀ) + conv_b ),
  where lrelu is the leaky rectifier with the f32 slope word 0x3C23D70A, the biases are added along the rows, and A is the
  aggregation over the incidence list (features gathered at the node ids and summed per hyperedge, scaled by the
  reciprocal hyperedge degree, gathered back and summed per node, scaled by the reciprocal node degree).

  The kernel program computes `emb · conv_wᵀ` in its first region, ten row blocks of 5000 rows, each a matrix product of
  the block with the whole weight (its two changes of float format are the identity on extended reals); runs A as host
  operations; in its second region adds the bias, applies the rectifier and ACCUMULATES `Yᵀ·Y` over the same ten row
  blocks into one carried [256, 256] block, reset to zero at the first point and written back after the last; and in its
  third region, a single point, computes the head. The reference computes each of the three products as one
  `dot_general` (the weights transposed first) and A by the same host operations.

  WHY THEY AGREE. Every product is the same finite sum of the same products of entries. The one regrouping is the Gram
  matrix: the reference sums `y(r,i)·y(r,j)` over all 50000 rows at once, the kernel as ten partial sums of 5000 rows
  added one after the other onto a zero block — equal because addition of extended reals is commutative and associative
  and zero is its unit, which needs no finiteness (no product is distributed over a sum, nothing is cancelled). A is one
  function in both programs and is never opened: only its argument, the projection, is shown equal. The rectifier's
  comparison, the slope word and the zero word are literally the same on both sides. So the precondition (finite
  inputs) is not used by the value claim; the kernels' frames are the generated ones and hold for every input; the ideal
  pass rewrote nothing, so `preserves` is `True`.

  The modules: `Spec` (the five functions above), `R0Value` / `R1Value` / `R2Value` (each region's output array as the
  specification's function of the arrays the region finds, for ANY entry contents), `KMid` (the host stretch between the
  first two regions is `aggregate`), `KRun` (the kernel program's run with its result named), `KChain` (which buffer
  holds what at each boundary), `RefTerm` / `RefRun` (the reference's run and its result as one term), `RefRead` (that term
  read index by index), `AggEq` (the two programs' aggregations are one function).
-/
import proofs.«159324_j40638980555154_1_alg».proof.Defs
import proofs.«159324_j40638980555154_1_alg».proof.Proof.Gen.Kernel
import proofs.«159324_j40638980555154_1_alg».proof.Proof.Gen.Kernel.Frame
import proofs.«159324_j40638980555154_1_alg».proof.Proof.Gen.KernelIdeal
import proofs.«159324_j40638980555154_1_alg».proof.Proof.Gen.KernelIdeal.Frame
import proofs.«159324_j40638980555154_1_alg».proof.Proof.Gen.ReferenceIdeal
import proofs.«159324_j40638980555154_1_alg».proof.Proof.Gen.Pre_finite_inputs
import proofs.«159324_j40638980555154_1_alg».proof.Proof.Spec
import proofs.«159324_j40638980555154_1_alg».proof.Proof.R0Value
import proofs.«159324_j40638980555154_1_alg».proof.Proof.R1Value
import proofs.«159324_j40638980555154_1_alg».proof.Proof.R2Value
import proofs.«159324_j40638980555154_1_alg».proof.Proof.KMid
import proofs.«159324_j40638980555154_1_alg».proof.Proof.KRun
import proofs.«159324_j40638980555154_1_alg».proof.Proof.KChain
import proofs.«159324_j40638980555154_1_alg».proof.Proof.RefTerm
import proofs.«159324_j40638980555154_1_alg».proof.Proof.RefRun
import proofs.«159324_j40638980555154_1_alg».proof.Proof.RefRead
import proofs.«159324_j40638980555154_1_alg».proof.Proof.AggEq
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments unchanged: the generated frame. -/
theorem frame_kernel : Cert.frame_Kernel (hKernel := Cert.Kernel.Gen.facts) (hPre_finite_inputs := Cert.Pre_finite_inputs.Gen.facts) :=
  fun m ρ _ => Cert.Kernel.Gen.frame m ρ

/-- Its idealization likewise. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The two results are one function of arguments that agree: the kernel's boundary walk and the reference's term both
    read as the specification's composition, over the one aggregation. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.RefValue.result (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
      = Cert.KernelIdeal.Gen.W10 (F := Ideal) m ρ c (Proc.devRef .tc Cert.KernelIdeal.main_v51) := by
  rw [h0, h1, h2, h3, h4, h5]
  have hk := Cert.KernelIdeal.Chain.value m ρ Cert.KernelIdeal.R0Value.final Cert.KernelIdeal.R1Value.final Cert.KernelIdeal.R2Value.final c
  rw [Cert.Bridge.aggregate_eq, Cert.Bridge.row0_eq, Cert.Bridge.row1_eq] at hk
  exact (Cert.ReferenceIdeal.RefRead.result_eq _ _ _ _ _ _).trans hk.symm

/-- At the extended reals the two programs, run from memories that agree on the arguments, both end, with equal results
    and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W10 (F := Ideal) m ρ c (Proc.devRef .tc Cert.KernelIdeal.main_v51),
    Cert.KernelIdeal.Gen.run_value (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5⟩ := hagree c
  exact results_agree m ρ m' c h0 h1 h2 h3 h4 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
